-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S1x32 .f32) (main_cst_32 : FVec F S_ .f32) : IVec S_ 1 :=
  let main_v85 : FVec F S1x32 .f32 := broadcastInDim S1x32 ![] bcast_S_S1x32 main_cst_32
  let main_v86 : IVec S1x32 1 := cmpf .olt main_v84 main_v85
  let main_c_33 : IVec S_ 1 := constantI S_ 1 1#1
  let main_v87 : IVec S_ 1 := (fun x v => Host.reduce IntOp.andi x v reducesTo_S1x32_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S64 .f32) (main_arg16 : FVec F S32x64 .f32) (main_arg17 : FVec F S32 .f32) (main_arg18 : FVec F S1x32 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S32x64 .f32 := Host.absf main_arg16
  let main_cst_28 : FVec F S_ .f32 := constant S_ .f32 0x7F800000#32
  let main_v75 : FVec F S32x64 .f32 := broadcastInDim S32x64 ![] bcast_S_S32x64 main_cst_28
  let main_v76 : IVec S32x64 1 := cmpf .olt main_v74 main_v75
  let main_c_29 : IVec S_ 1 := constantI S_ 1 1#1
  let main_v77 : IVec S_ 1 := (fun x v => Host.reduce IntOp.andi x v reducesTo_S32x64_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S1x32 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64 .f32) (main_arg13 : FVec F S64 .f32) (main_arg14 : FVec F S64 .f32) (main_arg15 : FVec F S64 .f32) (main_arg16 : FVec F S32x64 .f32) (main_arg17 : FVec F S32 .f32) (main_arg18 : FVec F S1x32 .f32) (main_arg19 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S32x64 .f32) (main_arg17 : FVec F S32 .f32) (main_arg18 : FVec F S1x32 .f32) (main_arg19 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S32x64 .f32) (main_arg17 : FVec F S32 .f32) (main_arg18 : FVec F S1x32 .f32) (main_arg19 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S32x64 .f32) (main_arg17 : FVec F S32 .f32) (main_arg18 : FVec F S1x32 .f32) (main_arg19 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S2000x64 : Shape := ⟨2, ![2000, 64]⟩
abbrev S64x32 : Shape := ⟨2, ![64, 32]⟩
abbrev S32x1 : Shape := ⟨2, ![32, 1]⟩
abbrev S1x1 : Shape := ⟨2, ![1, 1]⟩
abbrev S2000x1 : Shape := ⟨2, ![2000, 1]⟩
abbrev S2000x32 : Shape := ⟨2, ![2000, 32]⟩

abbrev nBuf : Space → Nat
  | .hbm => 86
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S32x64, .f32⟩
  | .hbm, ⟨17, _⟩ => ⟨S32, .f32⟩
  | .hbm, ⟨18, _⟩ => ⟨S1x32, .f32⟩
  | .hbm, ⟨19, _⟩ => ⟨S1, .f32⟩
  | .hbm, ⟨20, _⟩ => ⟨S1x1200000, .i32⟩
  | .hbm, ⟨21, _⟩ => ⟨S1200000, .i32⟩
  | .hbm, ⟨22, _⟩ => ⟨S1x1200000, .i32⟩
  | .hbm, ⟨23, _⟩ => ⟨S1200000, .i32⟩
  | .hbm, ⟨24, _⟩ => ⟨S_, .f32⟩
  | .hbm, ⟨25, _⟩ => ⟨S1200000, .f32⟩
  | .hbm, ⟨26, _⟩ => ⟨S_, .f32⟩
  | .hbm, ⟨27, _⟩ => ⟨S100000, .f32⟩
  | .hbm, ⟨28, _⟩ => ⟨S1200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1200000, .i32⟩
  | .hbm, ⟨59, _⟩ => ⟨S1200000, .i1⟩
  | .hbm, ⟨60, _⟩ => ⟨S_, .i32⟩
  | .hbm, ⟨61, _⟩ => ⟨S1200000, .i32⟩
  | .hbm, ⟨62, _⟩ => ⟨S1200000, .i32⟩
  | .hbm, ⟨63, _⟩ => ⟨S1200000, .i32⟩
  | .hbm, ⟨64, _⟩ => ⟨S1200000x1, .i32⟩
  | .hbm, ⟨65, _⟩ => ⟨S1200000x64, .f32⟩
  | .hbm, ⟨66, _⟩ => ⟨S_, .f32⟩
  | .hbm, ⟨67, _⟩ => ⟨S100000x64, .f32⟩
  | .hbm, ⟨68, _⟩ => ⟨S1200000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S64x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S64x32, .f32⟩
  | .hbm, ⟨81, _⟩ => ⟨S1x32, .f32⟩
  | .hbm, ⟨82, _⟩ => ⟨S32x1, .f32⟩
  | .hbm, ⟨83, _⟩ => ⟨S1x1, .f32⟩
  | .hbm, ⟨84, _⟩ => ⟨S100000x1, .f32⟩
  | .hbm, ⟨85, _⟩ => ⟨S100000, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S2000x1, .f32⟩
  | .local _ .vmem, ⟨29, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  transposes_S32x64_S64x32_1_0 : S32x64.Transposes [1, 0] S64x32
  shapeCasts_S32_S1x32 : S32.ShapeCasts S1x32
  transposes_S1x32_S32x1_1_0 : S1x32.Transposes [1, 0] S32x1
  shapeCasts_S1_S1x1 : S1.ShapeCasts S1x1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x32.size a ≤ S64x32.size a
  hwx1_9 : ∀ i : grid1.Coords, EltTy.bits .f32 = 32 ∨ (Rect.block (s := S64x32) S64x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x1.size a ≤ S32x1.size a
  hwx1_11 : ∀ i : grid1.Coords, EltTy.bits .f32 = 32 ∨ (Rect.block (s := S32x1) S32x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S100000x1.size a
  hwx1_13 : ∀ i : grid1.Coords, EltTy.bits .f32 = 32 ∨ (Rect.block (s := S100000x1) S2000x1.size (cc1_transform_13 i) (hinb1_13 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v51) S64x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v52) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v53) S32x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v54) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v55) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64x64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S32x64, .f32⟩
  | 17 => ⟨S32, .f32⟩
  | 18 => ⟨S1x32, .f32⟩
  | 19 => ⟨S1, .f32⟩
  | 20 => ⟨S1x1200000, .i32⟩
  | 21 => ⟨S1200000, .i32⟩
  | 22 => ⟨S1x1200000, .i32⟩
  | 23 => ⟨S1200000, .i32⟩
  | 24 => ⟨S_, .i32⟩
  | 25 => ⟨S1200000, .i32⟩
  | 26 => ⟨S1200000, .i1⟩
  | 27 => ⟨S_, .i32⟩
  | 28 => ⟨S1200000, .i32⟩
  | 29 => ⟨S1200000, .i32⟩
  | 30 => ⟨S1200000, .i32⟩
  | 31 => ⟨S1200000x1, .i32⟩
  | 32 => ⟨S1200000x64, .f32⟩
  | 33 => ⟨S_, .f32⟩
  | 34 => ⟨S100000x64, .f32⟩
  | 35 => ⟨S1200000x1, .i32⟩
  | 36 => ⟨S100000x64, .f32⟩
  | 37 => ⟨S_, .f32⟩
  | 38 => ⟨S1200000, .f32⟩
  | 39 => ⟨S_, .f32⟩
  | 40 => ⟨S100000, .f32⟩
  | 41 => ⟨S1200000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S64x64, .f32⟩
  | 50 => ⟨S100000x64, .f32⟩
  | 51 => ⟨S1x64, .f32⟩
  | 52 => ⟨S100000x64, .f32⟩
  | 53 => ⟨S100000x64, .f32⟩
  | 54 => ⟨S64x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .f32⟩
  | 83 => ⟨S_, .f32⟩
  | 84 => ⟨S100000x64, .f32⟩
  | 85 => ⟨S1200000x1, .i32⟩
  | 86 => ⟨S100000x64, .f32⟩
  | 87 => ⟨S_, .f32⟩
  | 88 => ⟨S1200000, .f32⟩
  | 89 => ⟨S_, .f32⟩
  | 90 => ⟨S100000, .f32⟩
  | 91 => ⟨S1200000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S64x64, .f32⟩
  | 100 => ⟨S100000x64, .f32⟩
  | 101 => ⟨S1x64, .f32⟩
  | 102 => ⟨S100000x64, .f32⟩
  | 103 => ⟨S100000x64, .f32⟩
  | 104 => ⟨S64x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S64x32, .f32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | 1 => ⟨S_, .f32⟩
  | 2 => ⟨S100000x32, .f32⟩
  | 3 => ⟨S100000x32, .f32⟩
  | 4 => ⟨S32x1, .f32⟩
  | 5 => ⟨S100000x1, .f32⟩
  | 6 => ⟨S1x1, .f32⟩
  | 7 => ⟨S100000x1, .f32⟩
  | 8 => ⟨S100000x1, .f32⟩
  | 9 => ⟨S100000, .f32⟩
  | 10 => ⟨S100000, .f32⟩
  | 11 => ⟨S100000, .f32⟩
  | 12 => ⟨S_, .f32⟩
  | 13 => ⟨S100000, .f32⟩
  | 14 => ⟨S100000, .f32⟩
  | 15 => ⟨S_, .f32⟩
  | 16 => ⟨S100000, .f32⟩
  | 17 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call0_cst : Ref sig .tc := ⟨.hbm, 71, rfl⟩
abbrev main_call0_v0 : Ref sig .tc := ⟨.hbm, 72, rfl⟩
abbrev main_v44 : Ref sig .tc := ⟨.hbm, 73, rfl⟩
abbrev main_c_5 : Ref sig .tc := ⟨.hbm, 74, rfl⟩
abbrev main_v45 : Ref sig .tc := ⟨.hbm, 75, rfl⟩
abbrev main_v46 : Ref sig .tc := ⟨.hbm, 76, rfl⟩
abbrev main_c_6 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call1_cst : Ref sig .tc := ⟨.hbm, 121, rfl⟩
abbrev main_call1_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call2_cst : Ref sig .tc := ⟨.hbm, 129, rfl⟩
abbrev main_call2_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_12 : Ref sig .tc := ⟨.hbm, 140, rfl⟩
abbrev main_v100 : Ref sig .tc := ⟨.hbm, 141, rfl⟩
abbrev main_v101 : Ref sig .tc := ⟨.hbm, 142, rfl⟩
abbrev main_cst_13 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Glue.lean ====
/-
  The host-side graph operations both programs share, each as ONE function, never opened: the edge list's two rows,
  the in-degree of every node clamped below at one, and the neighbourhood mean of a feature array — gather the source
  rows of all edges, scatter-add them onto their destination nodes, divide by the clamped in-degree. Negative source
  indices wrap once around the node count, as array indexing does.
-/
import proofs.«113890_j68453188764197_1_alg».proof.Proof.Gen.KernelIdeal

noncomputable section

namespace Cert.Glue

open Cert.KernelIdeal Cert.KernelIdeal.Gen Idealize.ShloMosaic Idealize.ShloMosaic.TcCoe

variable {F : FTy → Type} [FloatOps F]

/-- Row 0 of the edge list: every edge's source node. -/
def srcOf (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000

/-- Row 1 of the edge list: every edge's destination node. -/
def dstOf (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- Every node's in-degree (a scatter-add of ones over the destinations), clamped below at one. -/
def cntOf (dst : (⟨S1200000, .i32⟩ : BufTy).Contents (Elt F)) : (⟨S100000, .f32⟩ : BufTy).Contents (Elt F) :=
  maximumf
    (Host.scatterAdd scatter_S100000_S1200000x1_S1200000_n_0_0_1
      (broadcastInDim S100000 ![] bcast_S_S100000 (constant S_ .f32 0x00000000#32))
      (broadcastInDim S1200000x1 ![0] bcast_S1200000_S1200000x1_0 dst)
      (broadcastInDim S1200000 ![] bcast_S_S1200000 (constant S_ .f32 0x3F800000#32)))
    (broadcastInDim S100000 ![] bcast_S_S100000 (constant S_ .f32 0x3F800000#32))

/-- The neighbourhood mean of the feature array `h`: the sum of the source rows over each node's incoming edges,
    divided by the node's clamped in-degree `cnt`. -/
def meanAgg (h : (⟨S100000x64, .f32⟩ : BufTy).Contents (Elt F)) (src dst : (⟨S1200000, .i32⟩ : BufTy).Contents (Elt F))
    (cnt : (⟨S100000, .f32⟩ : BufTy).Contents (Elt F)) : (⟨S100000x64, .f32⟩ : BufTy).Contents (Elt F) :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 dst)
      (Host.gather gather_S100000x64_S1200000x1_S1200000x64_1_0_n_n_0_1_164 h
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src))))
    (broadcastInDim S100000x64 ![0, 1] bcast_S100000x1_S100000x64_0_1 (broadcastInDim S100000x1 ![0] bcast_S100000_S100000x1_0 cnt))

end Cert.Glue

end
-- ==== Proof.KHost.lean ====
/-
  What the host operations of the kernel's program leave in the buffers each kernel region reads, as functions of the
  program's argument arrays: the first stretch computes the edge rows, the clamped in-degrees, the first neighbourhood
  mean, the transposed weights and the parameters as one-row matrices; the second stretch, run after the first region,
  computes the second neighbourhood mean from the first region's output and lays out the remaining parameters; the
  last stretch reshapes the second region's one-column output to a vector.
-/
import proofs.«113890_j68453188764197_1_alg».proof.Proof.FrameKernelIdeal
import proofs.«113890_j68453188764197_1_alg».proof.Proof.Glue
import Idealize.ShloMosaic.Lib.StableHlo.Run

set_option maxRecDepth 16384

noncomputable section

namespace Cert.KernelIdeal.HostRead

open Cert.KernelIdeal Cert.KernelIdeal.Gen Cert.KernelIdeal.GenP Cert.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

theorem W1_src (c : Dev nD) :
    W1 m ρ c (Proc.devRef .tc main_v1) = srcOf (m ((c : Thread nD τ).loc main_arg1)) := by
  show StableHlo.after hostOps0 (W0 m ρ c) (Proc.devRef .tc main_v1) = _
  after_results_simp <;> rfl

theorem W1_dst (c : Dev nD) :
    W1 m ρ c (Proc.devRef .tc main_v3) = dstOf (m ((c : Thread nD τ).loc main_arg1)) := by
  show StableHlo.after hostOps0 (W0 m ρ c) (Proc.devRef .tc main_v3) = _
  after_results_simp <;> rfl

theorem W1_cnt (c : Dev nD) :
    W1 m ρ c (Proc.devRef .tc main_v9) = cntOf (dstOf (m ((c : Thread nD τ).loc main_arg1))) := by
  show StableHlo.after hostOps0 (W0 m ρ c) (Proc.devRef .tc main_v9) = _
  after_results_simp <;> rfl

/-- The first neighbourhood mean: of the node features themselves. -/
theorem W1_agg (c : Dev nD) :
    W1 m ρ c (Proc.devRef .tc main_v22) = meanAgg (m ((c : Thread nD τ).loc main_arg0)) (srcOf (m ((c : Thread nD τ).loc main_arg1))) (dstOf (m ((c : Thread nD τ).loc main_arg1))) (cntOf (dstOf (m ((c : Thread nD τ).loc main_arg1)))) := by
  show StableHlo.after hostOps0 (W0 m ρ c) (Proc.devRef .tc main_v22) = _
  after_results_simp <;> rfl

theorem W1_x (c : Dev nD) :
    W1 m ρ c (Proc.devRef .tc main_arg0) = (m ((c : Thread nD τ).loc main_arg0)) := by
  show StableHlo.after hostOps0 (W0 m ρ c) (Proc.devRef .tc main_arg0) = _
  after_results_simp <;> rfl

theorem W1_wl (c : Dev nD) :
    W1 m ρ c (Proc.devRef .tc main_v23) = transpose S64x64 [1, 0] (m ((c : Thread nD τ).loc main_arg2)) transposes_S64x64_S64x64_1_0 := by
  show StableHlo.after hostOps0 (W0 m ρ c) (Proc.devRef .tc main_v23) = _
  after_results_simp <;> rfl

theorem W1_wr (c : Dev nD) :
    W1 m ρ c (Proc.devRef .tc main_v24) = transpose S64x64 [1, 0] (m ((c : Thread nD τ).loc main_arg4)) transposes_S64x64_S64x64_1_0 := by
  show StableHlo.after hostOps0 (W0 m ρ c) (Proc.devRef .tc main_v24) = _
  after_results_simp <;> rfl

theorem W1_bl (c : Dev nD) :
    W1 m ρ c (Proc.devRef .tc main_v25) = shapeCast _ (m ((c : Thread nD τ).loc main_arg3)) shapeCasts_S64_S1x64 := by
  show StableHlo.after hostOps0 (W0 m ρ c) (Proc.devRef .tc main_v25) = _
  after_results_simp <;> rfl

theorem W1_g (c : Dev nD) :
    W1 m ρ c (Proc.devRef .tc main_v26) = shapeCast _ (m ((c : Thread nD τ).loc main_arg5)) shapeCasts_S64_S1x64 := by
  show StableHlo.after hostOps0 (W0 m ρ c) (Proc.devRef .tc main_v26) = _
  after_results_simp <;> rfl

theorem W1_be (c : Dev nD) :
    W1 m ρ c (Proc.devRef .tc main_v27) = shapeCast _ (m ((c : Thread nD τ).loc main_arg6)) shapeCasts_S64_S1x64 := by
  show StableHlo.after hostOps0 (W0 m ρ c) (Proc.devRef .tc main_v27) = _
  after_results_simp <;> rfl

theorem W1_mu (c : Dev nD) :
    W1 m ρ c (Proc.devRef .tc main_v28) = shapeCast _ (m ((c : Thread nD τ).loc main_arg7)) shapeCasts_S64_S1x64 := by
  show StableHlo.after hostOps0 (W0 m ρ c) (Proc.devRef .tc main_v28) = _
  after_results_simp <;> rfl

theorem W1_var (c : Dev nD) :
    W1 m ρ c (Proc.devRef .tc main_v29) = shapeCast _ (m ((c : Thread nD τ).loc main_arg8)) shapeCasts_S64_S1x64 := by
  show StableHlo.after hostOps0 (W0 m ρ c) (Proc.devRef .tc main_v29) = _
  after_results_simp <;> rfl

/-! ## Between the regions

The second stretch reads the first region's output (window 9's array), the edge rows and in-degrees the first stretch
left, and argument arrays; the first region writes only its output array, so every other buffer is as the first stretch
left it. -/

/-- A buffer that is none of the first region's arrays and that the first stretch does not write holds its launch
    contents when the second stretch starts. -/
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_cnt (c : Dev nD) : W2 m ρ c (Proc.devRef .tc main_v9) = cntOf (dstOf (m ((c : Thread nD τ).loc main_arg1))) :=
  (W2_of_ne m ρ c main_v9 (by decide)).trans (W1_cnt m ρ c)
/-- The first region's output array as the pipeline leaves it. -/
theorem W2_h (c : Dev nD) : W2 m ρ c (Proc.devRef .tc main_v30) = (dat0 (V1 m ρ) c).arrAt 9 cfg0.N :=
  W2_arr m ρ c 9

/-- The second neighbourhood mean: of the first region's output. -/
theorem W3_agg (c : Dev nD) :
    W3 m ρ c (Proc.devRef .tc main_v43)
      = meanAgg ((dat0 (V1 m ρ) c).arrAt 9 cfg0.N) (srcOf (m ((c : Thread nD τ).loc main_arg1))) (dstOf (m ((c : Thread nD τ).loc main_arg1))) (cntOf (dstOf (m ((c : Thread nD τ).loc main_arg1)))) := by
  show StableHlo.after hostOps1 (W2 m ρ c) (Proc.devRef .tc main_v43) = _
  after_results_simp
  rw [W2_src, W2_dst, W2_cnt, W2_h]
  rfl
theorem W3_h (c : Dev nD) : W3 m ρ c (Proc.devRef .tc main_v30) = (dat0 (V1 m ρ) c).arrAt 9 cfg0.N := by
  show StableHlo.after hostOps1 (W2 m ρ c) (Proc.devRef .tc main_v30) = _
  after_results_simp
  exact W2_h m ρ c
theorem W3_wl (c : Dev nD) :
    W3 m ρ c (Proc.devRef .tc main_v44) = transpose S64x64 [1, 0] (m ((c : Thread nD τ).loc main_arg9)) transposes_S64x64_S64x64_1_0 := by
  have e : W2 m ρ c (Proc.devRef .tc main_arg9) = m ((c : Thread nD τ).loc main_arg9) :=
    W2_arg m ρ c main_arg9 (by decide) (by after_results_simp <;> rfl)
  show StableHlo.after hostOps1 (W2 m ρ c) (Proc.devRef .tc main_v44) = _
  after_results_simp
  rw [e]

theorem W3_wr (c : Dev nD) :
    W3 m ρ c (Proc.devRef .tc main_v45) = transpose S64x64 [1, 0] (m ((c : Thread nD τ).loc main_arg11)) transposes_S64x64_S64x64_1_0 := by
  have e : W2 m ρ c (Proc.devRef .tc main_arg11) = m ((c : Thread nD τ).loc main_arg11) :=
    W2_arg m ρ c main_arg11 (by decide) (by after_results_simp <;> rfl)
  show StableHlo.after hostOps1 (W2 m ρ c) (Proc.devRef .tc main_v45) = _
  after_results_simp
  rw [e]

theorem W3_bl (c : Dev nD) :
    W3 m ρ c (Proc.devRef .tc main_v46) = shapeCast _ (m ((c : Thread nD τ).loc main_arg10)) shapeCasts_S64_S1x64 := by
  have e : W2 m ρ c (Proc.devRef .tc main_arg10) = m ((c : Thread nD τ).loc main_arg10) :=
    W2_arg m ρ c main_arg10 (by decide) (by after_results_simp <;> rfl)
  show StableHlo.after hostOps1 (W2 m ρ c) (Proc.devRef .tc main_v46) = _
  after_results_simp
  rw [e]
  rfl

theorem W3_g (c : Dev nD) :
    W3 m ρ c (Proc.devRef .tc main_v47) = shapeCast _ (m ((c : Thread nD τ).loc main_arg12)) shapeCasts_S64_S1x64 := by
  have e : W2 m ρ c (Proc.devRef .tc main_arg12) = m ((c : Thread nD τ).loc main_arg12) :=
    W2_arg m ρ c main_arg12 (by decide) (by after_results_simp <;> rfl)
  show StableHlo.after hostOps1 (W2 m ρ c) (Proc.devRef .tc main_v47) = _
  after_results_simp
  rw [e]
  rfl

theorem W3_be (c : Dev nD) :
    W3 m ρ c (Proc.devRef .tc main_v48) = shapeCast _ (m ((c : Thread nD τ).loc main_arg13)) shapeCasts_S64_S1x64 := by
  have e : W2 m ρ c (Proc.devRef .tc main_arg13) = m ((c : Thread nD τ).loc main_arg13) :=
    W2_arg m ρ c main_arg13 (by decide) (by after_results_simp <;> rfl)
  show StableHlo.after hostOps1 (W2 m ρ c) (Proc.devRef .tc main_v48) = _
  after_results_simp
  rw [e]
  rfl

theorem W3_mu (c : Dev nD) :
    W3 m ρ c (Proc.devRef .tc main_v49) = shapeCast _ (m ((c : Thread nD τ).loc main_arg14)) shapeCasts_S64_S1x64 := by
  have e : W2 m ρ c (Proc.devRef .tc main_arg14) = m ((c : Thread nD τ).loc main_arg14) :=
    W2_arg m ρ c main_arg14 (by decide) (by after_results_simp <;> rfl)
  show StableHlo.after hostOps1 (W2 m ρ c) (Proc.devRef .tc main_v49) = _
  after_results_simp
  rw [e]
  rfl

theorem W3_var (c : Dev nD) :
    W3 m ρ c (Proc.devRef .tc main_v50) = shapeCast _ (m ((c : Thread nD τ).loc main_arg15)) shapeCasts_S64_S1x64 := by
  have e : W2 m ρ c (Proc.devRef .tc main_arg15) = m ((c : Thread nD τ).loc main_arg15) :=
    W2_arg m ρ c main_arg15 (by decide) (by after_results_simp <;> rfl)
  show StableHlo.after hostOps1 (W2 m ρ c) (Proc.devRef .tc main_v50) = _
  after_results_simp
  rw [e]
  rfl

theorem W3_w1 (c : Dev nD) :
    W3 m ρ c (Proc.devRef .tc main_v51) = transpose S64x32 [1, 0] (m ((c : Thread nD τ).loc main_arg16)) transposes_S32x64_S64x32_1_0 := by
  have e : W2 m ρ c (Proc.devRef .tc main_arg16) = m ((c : Thread nD τ).loc main_arg16) :=
    W2_arg m ρ c main_arg16 (by decide) (by after_results_simp <;> rfl)
  show StableHlo.after hostOps1 (W2 m ρ c) (Proc.devRef .tc main_v51) = _
  after_results_simp
  rw [e]

theorem W3_b1 (c : Dev nD) :
    W3 m ρ c (Proc.devRef .tc main_v52) = shapeCast _ (m ((c : Thread nD τ).loc main_arg17)) shapeCasts_S32_S1x32 := by
  have e : W2 m ρ c (Proc.devRef .tc main_arg17) = m ((c : Thread nD τ).loc main_arg17) :=
    W2_arg m ρ c main_arg17 (by decide) (by after_results_simp <;> rfl)
  show StableHlo.after hostOps1 (W2 m ρ c) (Proc.devRef .tc main_v52) = _
  after_results_simp
  rw [e]
  rfl

theorem W3_w2 (c : Dev nD) :
    W3 m ρ c (Proc.devRef .tc main_v53) = transpose S32x1 [1, 0] (m ((c : Thread nD τ).loc main_arg18)) transposes_S1x32_S32x1_1_0 := by
  have e : W2 m ρ c (Proc.devRef .tc main_arg18) = m ((c : Thread nD τ).loc main_arg18) :=
    W2_arg m ρ c main_arg18 (by decide) (by after_results_simp <;> rfl)
  show StableHlo.after hostOps1 (W2 m ρ c) (Proc.devRef .tc main_v53) = _
  after_results_simp
  rw [e]

theorem W3_b2 (c : Dev nD) :
    W3 m ρ c (Proc.devRef .tc main_v54) = shapeCast _ (m ((c : Thread nD τ).loc main_arg19)) shapeCasts_S1_S1x1 := by
  have e : W2 m ρ c (Proc.devRef .tc main_arg19) = m ((c : Thread nD τ).loc main_arg19) :=
    W2_arg m ρ c main_arg19 (by decide) (by after_results_simp <;> rfl)
  show StableHlo.after hostOps1 (W2 m ρ c) (Proc.devRef .tc main_v54) = _
  after_results_simp
  rw [e]
  rfl

/-! ## After the second region -/

/-- The result: the second region's one-column output (window 13's array as the pipeline leaves it), reshaped. -/
theorem W5_out (c : Dev nD) :
    W5 m ρ c (Proc.devRef .tc main_v56) = shapeCast _ ((dat1 (V3 m ρ) c).arrAt 13 cfg1.N) shapeCasts_S100000x1_S100000 := by
  show StableHlo.after hostOps2 (W4 m ρ c) (Proc.devRef .tc main_v56) = _
  after_results_simp
  rw [show W4 m ρ c (Proc.devRef .tc main_v55) = (dat1 (V3 m ρ) c).arrAt 13 cfg1.N from W4_arr m ρ c 13]
  rfl

end Cert.KernelIdeal.HostRead

end
-- ==== Proof.Spec.lean ====
/-
  The mathematics both programs compute, node by node, over the extended reals.

  A node's feature row passes through two mean-aggregation graph-convolution layers and a two-layer
  perceptron with a logistic output. One layer, for node `r` and output channel `j`:

      relu( ((Σₖ a k · wl k j) + (Σₖ x k · wr k j) + bl j − mu j) · (g j · rsqrt (var j + ε)) + be j )

  where `a` is the node's row of the neighbourhood mean, `x` its own row, `wl`, `wr` the two weight
  matrices read as (input channel, output channel), `bl` the bias, and `g, be, mu, var` the affine
  parameters and running statistics of an evaluation-mode batch normalisation. The head is

      logistic( (Σ_{k₂} relu((Σₖ h k · w1 k k₂) + b1 k₂) · w2 k₂) + b2 ).

  The parameters are taken as plain functions of channel indices, so that neither program's layout of
  them (a transposed matrix, a bias kept as a row of a one-row matrix) enters the specification.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The batch normalisation's ε, the single-precision word nearest to 1e-5, read exactly. -/
abbrev eps : EReal := Ideal.ofBits .f32 0x3727C5AC#32

/-- Node features: 100000 nodes, 64 channels. -/
abbrev SN64 : Shape := ⟨2, ![100000, 64]⟩
/-- The network's output as the second kernel leaves it: one column. -/
abbrev SN1 : Shape := ⟨2, ![100000, 1]⟩
/-- The network's output: one value per node. -/
abbrev SN : Shape := ⟨1, ![100000]⟩

/-- One output channel of one layer on one node: the two linear maps, the bias, the normalisation, the rectifier. -/
def sageRow (a x : Fin 64 → EReal) (wl wr : Fin 64 → Fin 64 → EReal) (bl g be mu var : Fin 64 → EReal) (j : Fin 64) : EReal :=
  max (((((∑ k : Fin 64, a k * wl k j) + (∑ k : Fin 64, x k * wr k j)) + bl j) - mu j) * (g j * Ideal.rsqrt (var j + eps)) + be j) 0

/-- The same with the bias added before the second linear map: addition of extended reals is commutative and
    associative (also at the infinities), so the order of the three summands does not matter. -/
theorem sageRow_bias_first (a x : Fin 64 → EReal) (wl wr : Fin 64 → Fin 64 → EReal) (bl g be mu var : Fin 64 → EReal) (j : Fin 64) :
    max (((((∑ k : Fin 64, a k * wl k j) + bl j) + (∑ k : Fin 64, x k * wr k j)) - mu j) * (g j * Ideal.rsqrt (var j + eps)) + be j) 0
      = sageRow a x wl wr bl g be mu var j := by
  unfold sageRow
  rw [add_right_comm]

/-- The perceptron head on one node's 64 features. -/
def headRow (h : Fin 64 → EReal) (w1 : Fin 64 → Fin 32 → EReal) (b1 : Fin 32 → EReal) (w2 : Fin 32 → EReal) (b2 : EReal) : EReal :=
  Ideal.logistic ((∑ k2 : Fin 32, max ((∑ k : Fin 64, h k * w1 k k2) + b1 k2) 0 * w2 k2) + b2)

/-- A whole layer: every node's row from its neighbourhood-mean row and its own row. -/
def sageArr (agg x : SN64.Idx → EReal) (wl wr : Fin 64 → Fin 64 → EReal) (bl g be mu var : Fin 64 → EReal) : SN64.Idx → EReal :=
  fun i => sageRow (fun k => agg (ix2 (i 0) k)) (fun k => x (ix2 (i 0) k)) wl wr bl g be mu var (i 1)

/-- The second layer followed by the head, for node `r`. -/
def outNode (agg h : SN64.Idx → EReal) (wl wr : Fin 64 → Fin 64 → EReal) (bl g be mu var : Fin 64 → EReal)
    (w1 : Fin 64 → Fin 32 → EReal) (b1 : Fin 32 → EReal) (w2 : Fin 32 → EReal) (b2 : EReal) (r : Fin 100000) : EReal :=
  headRow (fun j => sageRow (fun k => agg (ix2 r k)) (fun k => h (ix2 r k)) wl wr bl g be mu var j) w1 b1 w2 b2

/-- The network's output as a one-column matrix (what the second kernel writes). -/
def outCol (agg h : SN64.Idx → EReal) (wl wr : Fin 64 → Fin 64 → EReal) (bl g be mu var : Fin 64 → EReal)
    (w1 : Fin 64 → Fin 32 → EReal) (b1 : Fin 32 → EReal) (w2 : Fin 32 → EReal) (b2 : EReal) : SN1.Idx → EReal :=
  fun i => outNode agg h wl wr bl g be mu var w1 b1 w2 b2 (i 0)

/-- The network's output as a vector over the nodes. -/
def outVec (agg h : SN64.Idx → EReal) (wl wr : Fin 64 → Fin 64 → EReal) (bl g be mu var : Fin 64 → EReal)
    (w1 : Fin 64 → Fin 32 → EReal) (b1 : Fin 32 → EReal) (w2 : Fin 32 → EReal) (b2 : EReal) : SN.Idx → EReal :=
  fun i => outNode agg h wl wr bl g be mu var w1 b1 w2 b2 (i 0)

/-- The single-precision word of 1.0 is the real number 1. -/
theorem ofBits_one_f32 : Ideal.ofBits .f32 0x3F800000#32 = 1 := by
  simp [Ideal.ofBits, Ideal.ieee, -EReal.coe_mul]; norm_num

/-- The logistic function is the expansion `1 / (1 + e^(−x))` with the two literal ones written as words. -/
theorem logistic_expand (x : EReal) :
    Ideal.div (Ideal.ofBits .f32 0x3F800000#32) (Ideal.ofBits .f32 0x3F800000#32 + Ideal.exp (-x)) = Ideal.logistic x := by
  rw [ofBits_one_f32]; rfl

end Cert.Spec

end
-- ==== Proof.KLayer1.lean ====
/-
  One graph-convolution layer, read off the first kernel region's output array.

  The region walks 50 grid points; at point t it loads rows t·2000 … t·2000 + 1999 of the neighbourhood-mean and
  node-feature arrays and the whole of each parameter array, and stores, at row p and channel q of its output block,
      relu( ((Σₖ a[p,k]·wl[k,q]) + (Σₖ x[p,k]·wr[k,q]) + bl[q] − mu[q]) · (g[q]·rsqrt(var[q] + ε)) + be[q] ).
  That is the layer's row formula at row t·2000 + p; the 50 blocks of 2000 rows tile the 100000 rows, so the array the
  region leaves is the layer of the arrays it found, index by index.
-/
import proofs.«113890_j68453188764197_1_alg».proof.Proof.FrameKernelIdeal
import proofs.«113890_j68453188764197_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

/-! ## The matrix unit's product of a 2000×64 block with a 64×64 matrix, at an entry -/

theorem lhs_rowprod_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_rowprod_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_rowprod_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_rowprod_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (p, q) of the product into a zero accumulator is the row-by-column sum over the 64 input channels. -/
theorem rowprod_apply {φ₁ φ₂ : FTy} (X : FVec Ideal S2000x64 φ₁) (W : FVec Ideal S64x64 φ₂) (p : Fin 2000) (q : Fin 64) :
    matmul dot_S2000x64_S64x64_S2000x64_1_0_0_1_n_n none X W (constant S2000x64 .f32 0x00000000#32) (ix2 p q)
      = ∑ k : Fin 64, X (ix2 p k) * W (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_rowprod_0 _ _
    | ⟨1, _⟩ => exact (lhs_rowprod_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_rowprod_0 _ _).trans hk
    | ⟨1, _⟩ => exact rhs_rowprod_1 _ _)
  rw [el, er]

/-! ## The body's payload at an entry: one layer's row -/

/-- What the body stores at row p, channel q of its block, from the blocks it loaded: the layer's formula on row p of the
    two feature blocks, the parameters read off their one-row blocks. -/
theorem payload_apply (x0 x1 : Vec Ideal S2000x64 .f32) (x2 x4 : Vec Ideal S64x64 .f32) (x3 x5 x6 x7 x8 : Vec Ideal S1x64 .f32)
    (p : Fin 2000) (q : Fin 64) :
    k0_pay1 (k0_pay2 x0 x1 x2 x4 x3 x5 x8 x7 x6) (k0_pay3 (F := Ideal)) (ix2 p q)
      = sageRow (fun k => x0 (ix2 p k)) (fun k => x1 (ix2 p k)) (fun k j => x2 (ix2 k j)) (fun k j => x4 (ix2 k j))
          (fun j => x3 (ix2 0 j)) (fun j => x5 (ix2 0 j)) (fun j => x6 (ix2 0 j)) (fun j => x7 (ix2 0 j)) (fun j => x8 (ix2 0 j)) q := by
  unfold k0_pay1 k0_pay2 k0_pay3 sageRow
  simp only [shapeCast_self]
  rw [maximumf_apply, addf_apply, mulf_apply, subf_apply, addf_apply, addf_apply, rowprod_apply, rowprod_apply,
    broadcastTo_1b_ab_apply, broadcastTo_1b_ab_apply, broadcastTo_1b_ab_apply, broadcastTo_1b_ab_apply,
    broadcast_apply, show FloatOps.ofBits (F := Ideal) .f32 0x00000000#32 = 0 from Ideal.ofBits_zero_f32]
  rfl

variable (V : (c : Dev nD) → (b : Ref sig .tc) → Buf (Elt Ideal) ((c : Thread nD τ).loc b))

/-- The arrays region 0 finds, at their literal types. -/
abbrev aggA (c : Dev nD) : S100000x64.Idx → EReal := V c main_v22
abbrev xA (c : Dev nD) : S100000x64.Idx → EReal := V c main_arg0
abbrev wlA (c : Dev nD) : S64x64.Idx → EReal := V c main_v23
abbrev wrA (c : Dev nD) : S64x64.Idx → EReal := V c main_v24
abbrev blA (c : Dev nD) : S1x64.Idx → EReal := V c main_v25
abbrev gA (c : Dev nD) : S1x64.Idx → EReal := V c main_v26
abbrev beA (c : Dev nD) : S1x64.Idx → EReal := V c main_v27
abbrev muA (c : Dev nD) : S1x64.Idx → EReal := V c main_v28
abbrev varA (c : Dev nD) : S1x64.Idx → EReal := V c main_v29

/-! ## From the blocks to the array -/

/-- The layer on the arrays the region finds, as one function of the output's index. -/
abbrev layerArr (c : Dev nD) : S100000x64.Idx → EReal :=
  sageArr (aggA V c) (xA V c) (fun k j => wlA V c (ix2 k j)) (fun k j => wrA V c (ix2 k j))
    (fun j => blA V c (ix2 0 j)) (fun j => gA V c (ix2 0 j)) (fun j => beA V c (ix2 0 j))
    (fun j => muA V c (ix2 0 j)) (fun j => varA V c (ix2 0 j))

/-- At an index whose coordinates are row r and channel q, the layer is the row formula on row r of the two feature arrays. -/
theorem layerArr_apply (c : Dev nD) (i : S100000x64.Idx) (r : Fin 100000) (q : Fin 64) (h0 : (i 0).val = r.val) (h1 : (i 1).val = q.val) :
    layerArr V c i = sageRow (fun k => aggA V c (ix2 r k)) (fun k => xA V c (ix2 r k)) (fun k j => wlA V c (ix2 k j)) (fun k j => wrA V c (ix2 k j))
      (fun j => blA V c (ix2 0 j)) (fun j => gA V c (ix2 0 j)) (fun j => beA V c (ix2 0 j))
      (fun j => muA V c (ix2 0 j)) (fun j => varA V c (ix2 0 j)) q := by
  obtain rfl : i = ix2 r q := funext fun a => Fin.ext (by
    match a with
    | ⟨0, _⟩ => exact h0
    | ⟨1, _⟩ => exact h1)
  rfl

theorem zero_offsets : (![0, 0] : Fin 2 → Nat) = fun _ => 0 := funext fun a => by fin_cases a <;> rfl

/-- The printed index maps, decided over the 50 grid points: the two feature windows and the output window sit at block
    (t, 0); every parameter window at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of the neighbourhood-mean block at point t is row t·2000 + p of its array. -/
theorem agg_blk (c : Dev nD) (t : Fin cfg0.N) (p : Fin 2000) (k : Fin 64) (r : Fin 100000) (hr : r.val = t.val * 2000 + p.val) :
    (iblk0 V c 0 t : Vec Ideal S2000x64 .f32) (ix2 p k) = aggA V c (ix2 r k) := by
  have hi := block_indices t
  unfold iblk0
  rw [View.read_apply]
  show V c main_v22 _ = V c main_v22 _
  refine congrArg _ (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- Row p of the node-feature block at point t is row t·2000 + p of its array. -/
theorem x_blk (c : Dev nD) (t : Fin cfg0.N) (p : Fin 2000) (k : Fin 64) (r : Fin 100000) (hr : r.val = t.val * 2000 + p.val) :
    (iblk0 V c 1 t : Vec Ideal S2000x64 .f32) (ix2 p k) = xA V c (ix2 r k) := by
  have hi := block_indices t
  unfold iblk0
  rw [View.read_apply]
  show V c main_arg0 _ = V c main_arg0 _
  refine congrArg _ (funext fun a => Fin.ext ?_)
  match a with
  | ⟨0, _⟩ => show win0_1.index t (0 : Fin 2) * 2000 + 1 * p.val = r.val; omega
  | ⟨1, _⟩ => show win0_1.index t (1 : Fin 2) * 64 + 1 * k.val = k.val; omega

/-- Each parameter's block is its whole array, at every point. -/
theorem wl_blk (c : Dev nD) (t : Fin cfg0.N) (k j : Fin 64) :
    (iblk0 V c 2 t : Vec Ideal S64x64 .f32) (ix2 k j) = wlA V c (ix2 k j) := by
  have hi := block_indices t
  unfold iblk0
  rw [View.read_apply]
  show V c main_v23 _ = V c main_v23 _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega
theorem wr_blk (c : Dev nD) (t : Fin cfg0.N) (k j : Fin 64) :
    (iblk0 V c 4 t : Vec Ideal S64x64 .f32) (ix2 k j) = wrA V c (ix2 k j) := by
  have hi := block_indices t
  unfold iblk0
  rw [View.read_apply]
  show V c main_v24 _ = V c main_v24 _
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega
theorem bl_blk (c : Dev nD) (t : Fin cfg0.N) (z : Fin 1) (j : Fin 64) :
    (iblk0 V c 3 t : Vec Ideal S1x64 .f32) (ix2 z j) = blA V c (ix2 z j) := by
  have hi := block_indices t
  unfold iblk0
  rw [View.read_apply]
  show V c main_v25 _ = V c main_v25 _
  refine congrArg _ (funext fun a => Fin.ext ?_)
  match a with
  | ⟨0, _⟩ => show win0_3.index t (0 : Fin 2) * 1 + 1 * z.val = z.val; omega
  | ⟨1, _⟩ => show win0_3.index t (1 : Fin 2) * 64 + 1 * j.val = j.val; omega
theorem g_blk (c : Dev nD) (t : Fin cfg0.N) (z : Fin 1) (j : Fin 64) :
    (iblk0 V c 5 t : Vec Ideal S1x64 .f32) (ix2 z j) = gA V c (ix2 z j) := by
  have hi := block_indices t
  unfold iblk0
  rw [View.read_apply]
  show V c main_v26 _ = V c main_v26 _
  refine congrArg _ (funext fun a => Fin.ext ?_)
  match a with
  | ⟨0, _⟩ => show win0_5.index t (0 : Fin 2) * 1 + 1 * z.val = z.val; omega
  | ⟨1, _⟩ => show win0_5.index t (1 : Fin 2) * 64 + 1 * j.val = j.val; omega
theorem be_blk (c : Dev nD) (t : Fin cfg0.N) (z : Fin 1) (j : Fin 64) :
    (iblk0 V c 6 t : Vec Ideal S1x64 .f32) (ix2 z j) = beA V c (ix2 z j) := by
  have hi := block_indices t
  unfold iblk0
  rw [View.read_apply]
  show V c main_v27 _ = V c main_v27 _
  refine congrArg _ (funext fun a => Fin.ext ?_)
  match a with
  | ⟨0, _⟩ => show win0_6.index t (0 : Fin 2) * 1 + 1 * z.val = z.val; omega
  | ⟨1, _⟩ => show win0_6.index t (1 : Fin 2) * 64 + 1 * j.val = j.val; omega
theorem mu_blk (c : Dev nD) (t : Fin cfg0.N) (z : Fin 1) (j : Fin 64) :
    (iblk0 V c 7 t : Vec Ideal S1x64 .f32) (ix2 z j) = muA V c (ix2 z j) := by
  have hi := block_indices t
  unfold iblk0
  rw [View.read_apply]
  show V c main_v28 _ = V c main_v28 _
  refine congrArg _ (funext fun a => Fin.ext ?_)
  match a with
  | ⟨0, _⟩ => show win0_7.index t (0 : Fin 2) * 1 + 1 * z.val = z.val; omega
  | ⟨1, _⟩ => show win0_7.index t (1 : Fin 2) * 64 + 1 * j.val = j.val; omega
theorem var_blk (c : Dev nD) (t : Fin cfg0.N) (z : Fin 1) (j : Fin 64) :
    (iblk0 V c 8 t : Vec Ideal S1x64 .f32) (ix2 z j) = varA V c (ix2 z j) := by
  have hi := block_indices t
  unfold iblk0
  rw [View.read_apply]
  show V c main_v29 _ = V c main_v29 _
  refine congrArg _ (funext fun a => Fin.ext ?_)
  match a with
  | ⟨0, _⟩ => show win0_8.index t (0 : Fin 2) * 1 + 1 * z.val = z.val; omega
  | ⟨1, _⟩ => show win0_8.index t (1 : Fin 2) * 64 + 1 * j.val = j.val; omega

/-- What the body stores at row p, channel q of the block at point t is the layer's row t·2000 + p, channel q. -/
theorem stored_apply (c : Dev nD) (t : Fin cfg0.N) (p : Fin 2000) (q : Fin 64) (r : Fin 100000) (hr : r.val = t.val * 2000 + p.val) :
    k0_pay1 (k0_pay2 (iblk0 V c 0 t) (iblk0 V c 1 t) (iblk0 V c 2 t) (iblk0 V c 4 t) (iblk0 V c 3 t) (iblk0 V c 5 t) (iblk0 V c 8 t) (iblk0 V c 7 t) (iblk0 V c 6 t)) (k0_pay3 (F := Ideal)) (ix2 p q)
      = sageRow (fun k => aggA V c (ix2 r k)) (fun k => xA V c (ix2 r k)) (fun k j => wlA V c (ix2 k j)) (fun k j => wrA V c (ix2 k j))
          (fun j => blA V c (ix2 0 j)) (fun j => gA V c (ix2 0 j)) (fun j => beA V c (ix2 0 j))
          (fun j => muA V c (ix2 0 j)) (fun j => varA V c (ix2 0 j)) q := by
  refine (payload_apply (iblk0 V c 0 t) (iblk0 V c 1 t) (iblk0 V c 2 t) (iblk0 V c 4 t) (iblk0 V c 3 t) (iblk0 V c 5 t) (iblk0 V c 6 t) (iblk0 V c 7 t) (iblk0 V c 8 t) p q).trans ?_
  have e0 : (fun k : Fin 64 => (iblk0 V c 0 t : Vec Ideal S2000x64 .f32) (ix2 p k)) = fun k => aggA V c (ix2 r k) := funext fun k => agg_blk V c t p k r hr
  have e1 : (fun k : Fin 64 => (iblk0 V c 1 t : Vec Ideal S2000x64 .f32) (ix2 p k)) = fun k => xA V c (ix2 r k) := funext fun k => x_blk V c t p k r hr
  have e2 : (fun k j : Fin 64 => (iblk0 V c 2 t : Vec Ideal S64x64 .f32) (ix2 k j)) = fun k j => wlA V c (ix2 k j) := funext fun k => funext fun j => wl_blk V c t k j
  have e4 : (fun k j : Fin 64 => (iblk0 V c 4 t : Vec Ideal S64x64 .f32) (ix2 k j)) = fun k j => wrA V c (ix2 k j) := funext fun k => funext fun j => wr_blk V c t k j
  have e3 : (fun j : Fin 64 => (iblk0 V c 3 t : Vec Ideal S1x64 .f32) (ix2 0 j)) = fun j => blA V c (ix2 0 j) := funext fun j => bl_blk V c t 0 j
  have e5 : (fun j : Fin 64 => (iblk0 V c 5 t : Vec Ideal S1x64 .f32) (ix2 0 j)) = fun j => gA V c (ix2 0 j) := funext fun j => g_blk V c t 0 j
  have e6 : (fun j : Fin 64 => (iblk0 V c 6 t : Vec Ideal S1x64 .f32) (ix2 0 j)) = fun j => beA V c (ix2 0 j) := funext fun j => be_blk V c t 0 j
  have e7 : (fun j : Fin 64 => (iblk0 V c 7 t : Vec Ideal S1x64 .f32) (ix2 0 j)) = fun j => muA V c (ix2 0 j) := funext fun j => mu_blk V c t 0 j
  have e8 : (fun j : Fin 64 => (iblk0 V c 8 t : Vec Ideal S1x64 .f32) (ix2 0 j)) = fun j => varA V c (ix2 0 j) := funext fun j => var_blk V c t 0 j
  rw [e0, e1, e2, e4, e3, e5, e6, e7, e8]

/-- WHAT POINT t WRITES BACK is block t of the layer on the arrays the region finds. -/
theorem written_back_eq (c : Dev nD) (t : Fin cfg0.N) :
    (dat0 (F := Ideal) V c).flushed 9 t = ((cfg0.win 9).blk t).view.read (Elt Ideal) (layerArr V c) := by
  show (cfg0.win 9).cut (grid0.coords t) ((dat0 (F := Ideal) V c).after 9 t) = _
  rw [after0_9]
  unfold out0_9
  rw [View.canon_unit_zero zero_offsets]
  simp only [View.ld_unit_zero (S := S2000x64) zero_offsets, View.ld_unit_zero (S := S64x64) zero_offsets, View.ld_unit_zero (S := S1x64) zero_offsets]
  have hi := block_indices t
  funext y
  obtain ⟨p, q, rfl⟩ : ∃ (p : Fin 2000) (q : Fin 64), y = ix2 p q := ⟨y 0, y 1, eq_ix2 y⟩
  have ht : t.val < 50 := t.isLt
  have hp : p.val < 2000 := p.isLt
  refine (stored_apply V c t p q ⟨t.val * 2000 + p.val, by omega⟩ rfl).trans ?_
  rw [View.read_apply]
  refine (layerArr_apply V c _ ⟨t.val * 2000 + p.val, by omega⟩ q ?_ ?_).symm
  · show win0_9.index t (0 : Fin 2) * 2000 + 1 * p.val = t.val * 2000 + p.val; omega
  · show win0_9.index t (1 : Fin 2) * 64 + 1 * q.val = q.val; omega

/-- An index of the array is in point t's block iff each coordinate is in the block's range on its axis. -/
theorem mem_out_block (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v30).slice (win0_9.rect t)).set ↔ _
  rw [View.set_slice_whole, Rect.mem_set_unit]
  exact Iff.rfl

/-- The 50 blocks of 2000 rows tile the 100000 rows: row r lies in the block of point r / 2000. -/
theorem rows_tiled (i : S100000x64.Idx) : ∃ t : Fin cfg0.N, (cfg0.win 9).flush t = true ∧ i ∈ ((cfg0.win 9).blk t).view.set := by
  have h0 : (i 0).val < 100000 := (i 0).isLt
  have h1 : (i 1).val < 64 := (i 1).isLt
  have hN : cfg0.N = 50 := rfl
  refine ⟨⟨(i 0).val / 2000, by rw [hN]; omega⟩, flush0_9 _, ?_⟩
  rw [mem_out_block]
  have hi := block_indices ⟨(i 0).val / 2000, by rw [hN]; omega⟩
  intro a
  match a with
  | ⟨0, _⟩ =>
    show win0_9.index _ (0 : Fin 2) * 2000 ≤ (i 0).val ∧ (i 0).val < win0_9.index _ (0 : Fin 2) * 2000 + 2000
    rw [hi.2.2.2.2.2.2.2.2.2.2.2.2.2.2.2.2.2.2.1]
    show (i 0).val / 2000 * 2000 ≤ (i 0).val ∧ (i 0).val < (i 0).val / 2000 * 2000 + 2000
    omega
  | ⟨1, _⟩ =>
    show win0_9.index _ (1 : Fin 2) * 64 ≤ (i 1).val ∧ (i 1).val < win0_9.index _ (1 : Fin 2) * 64 + 64
    rw [hi.2.2.2.2.2.2.2.2.2.2.2.2.2.2.2.2.2.2.2]
    omega

theorem final (c : Dev nD) :
    (dat0 (F := Ideal) V c).arrAt 9 cfg0.N
      = sageArr (aggA V c) (xA V c) (fun k j => wlA V c (ix2 k j)) (fun k j => wrA V c (ix2 k j))
          (fun j => blA V c (ix2 0 j)) (fun j => gA V c (ix2 0 j)) (fun j => beA V c (ix2 0 j))
          (fun j => muA V c (ix2 0 j)) (fun j => varA V c (ix2 0 j)) :=
  (dat0 (F := Ideal) V c).arrAt_eq_of_cover 9 (layerArr V c) (fun t _ => written_back_eq V c t) rows_tiled

end Cert.KernelIdeal.Layer1

end
-- ==== Proof.KLayer2.lean ====
/-
  The second graph-convolution layer and the perceptron head, as the second kernel region computes them.
  Each grid point takes 2000 consecutive rows of the neighbourhood means and of the first layer's output, forms
  for every row  relu(((a·Wl + x·Wr + bl − μ) · (γ · rsqrt(σ² + ε))) + β),  passes it through the 64→32 and 32→1
  maps with their biases and a rectifier between them, and applies the logistic function. The 50 blocks tile the
  100000 rows, so the result column is, row by row, the specification's value for that node; the kernel adds in
  the specification's order, so no law of arithmetic is used beyond reading the printed zero word as 0.
-/
import proofs.«113890_j68453188764197_1_alg».proof.Proof.FrameKernelIdeal
import proofs.«113890_j68453188764197_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The arrays region 1 finds, at their literal types. -/
abbrev aggA (c : Dev nD) : S100000x64.Idx → EReal := V c main_v43
abbrev hA (c : Dev nD) : S100000x64.Idx → EReal := V c main_v30
abbrev wlA (c : Dev nD) : S64x64.Idx → EReal := V c main_v44
abbrev wrA (c : Dev nD) : S64x64.Idx → EReal := V c main_v45
abbrev blA (c : Dev nD) : S1x64.Idx → EReal := V c main_v46
abbrev gA (c : Dev nD) : S1x64.Idx → EReal := V c main_v47
abbrev beA (c : Dev nD) : S1x64.Idx → EReal := V c main_v48
abbrev muA (c : Dev nD) : S1x64.Idx → EReal := V c main_v49
abbrev varA (c : Dev nD) : S1x64.Idx → EReal := V c main_v50
abbrev w1A (c : Dev nD) : S64x32.Idx → EReal := V c main_v51
abbrev b1A (c : Dev nD) : S1x32.Idx → EReal := V c main_v52
abbrev w2A (c : Dev nD) : S32x1.Idx → EReal := V c main_v53
abbrev b2A (c : Dev nD) : S1x1.Idx → EReal := V c main_v54

/-! ### The contraction `mm64x64`: rows of a 2000×64 block against a 64×64 matrix -/

theorem lhs_mm64x64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mm64x64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mm64x64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mm64x64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Into a zero accumulator the product's entry (p, j) is the sum over the contracted channel. -/
theorem mm64x64_apply (l : FVec Ideal S2000x64 .bf16) (r : FVec Ideal S64x64 .bf16) (p : Fin 2000) (j : Fin 64) :
    matmul dot_S2000x64_S64x64_S2000x64_1_0_0_1_n_n none l r (constant S2000x64 .f32 0x00000000#32) (ix2 p j)
      = ∑ k : Fin 64, l (ix2 p k) * r (ix2 k j) := by
  refine (Ideal.matmul_constant_zero_apply dot_S2000x64_S64x64_S2000x64_1_0_0_1_n_n none l r (ix2 p j)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p j) ((ValueIdx.contrEquiv1 dot_S2000x64_S64x64_S2000x64_1_0_0_1_n_n 64 rfl rfl).symm k) = ix2 p k := funext fun a => Fin.ext (by
    match a with
    | ⟨0, _⟩ => exact lhs_mm64x64_0 _ _
    | ⟨1, _⟩ => exact (lhs_mm64x64_1 _ _).trans hk)
  have er : dot_S2000x64_S64x64_S2000x64_1_0_0_1_n_n.rhsIdx (ix2 p j) ((ValueIdx.contrEquiv1 dot_S2000x64_S64x64_S2000x64_1_0_0_1_n_n 64 rfl rfl).symm k) = ix2 k j := funext fun a => Fin.ext (by
    match a with
    | ⟨0, _⟩ => exact (rhs_mm64x64_0 _ _).trans hk
    | ⟨1, _⟩ => exact rhs_mm64x64_1 _ _)
  rw [el, er]

/-! ### The contraction `mm64x32`: rows of a 2000×64 block against a 64×32 matrix -/

theorem lhs_mm64x32_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_mm64x32_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem rhs_mm64x32_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem rhs_mm64x32_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Into a zero accumulator the product's entry (p, j) is the sum over the contracted channel. -/
theorem mm64x32_apply (l : FVec Ideal S2000x64 .bf16) (r : FVec Ideal S64x32 .bf16) (p : Fin 2000) (j : Fin 32) :
    matmul dot_S2000x64_S64x32_S2000x32_1_0_0_1_n_n none l r (constant S2000x32 .f32 0x00000000#32) (ix2 p j)
      = ∑ k : Fin 64, l (ix2 p k) * r (ix2 k j) := by
  refine (Ideal.matmul_constant_zero_apply dot_S2000x64_S64x32_S2000x32_1_0_0_1_n_n none l r (ix2 p j)).trans ?_
  rw [← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p j) ((ValueIdx.contrEquiv1 dot_S2000x64_S64x32_S2000x32_1_0_0_1_n_n 64 rfl rfl).symm k) = ix2 p k := funext fun a => Fin.ext (by
    match a with
    | ⟨0, _⟩ => exact lhs_mm64x32_0 _ _
    | ⟨1, _⟩ => exact (lhs_mm64x32_1 _ _).trans hk)
  have er : dot_S2000x64_S64x32_S2000x32_1_0_0_1_n_n.rhsIdx (ix2 p j) ((ValueIdx.contrEquiv1 dot_S2000x64_S64x32_S2000x32_1_0_0_1_n_n 64 rfl rfl).symm k) = ix2 k j := funext fun a => Fin.ext (by
    match a with
    | ⟨0, _⟩ => exact (rhs_mm64x32_0 _ _).trans hk
    | ⟨1, _⟩ => exact rhs_mm64x32_1 _ _)
  rw [el, er]

/-! ### The contraction `mm32x1`: rows of a 2000×32 block against a 32×1 matrix -/

theorem lhs_mm32x1_0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem lhs_mm32x1_1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem rhs_mm32x1_0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem rhs_mm32x1_1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl

/-- Into a zero accumulator the product's entry (p, j) is the sum over the contracted channel. -/
theorem mm32x1_apply (l : FVec Ideal S2000x32 .bf16) (r : FVec Ideal S32x1 .bf16) (p : Fin 2000) (j : Fin 1) :
    matmul dot_S2000x32_S32x1_S2000x1_1_0_0_1_n_n none l r (constant S2000x1 .f32 0x00000000#32) (ix2 p j)
      = ∑ k : Fin 32, l (ix2 p k) * r (ix2 k j) := by
  refine (Ideal.matmul_constant_zero_apply dot_S2000x32_S32x1_S2000x1_1_0_0_1_n_n none l r (ix2 p j)).trans ?_
  rw [← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx (ix2 p j) ((ValueIdx.contrEquiv1 dot_S2000x32_S32x1_S2000x1_1_0_0_1_n_n 32 rfl rfl).symm k) = ix2 p k := funext fun a => Fin.ext (by
    match a with
    | ⟨0, _⟩ => exact lhs_mm32x1_0 _ _
    | ⟨1, _⟩ => exact (lhs_mm32x1_1 _ _).trans hk)
  have er : dot_S2000x32_S32x1_S2000x1_1_0_0_1_n_n.rhsIdx (ix2 p j) ((ValueIdx.contrEquiv1 dot_S2000x32_S32x1_S2000x1_1_0_0_1_n_n 32 rfl rfl).symm k) = ix2 k j := funext fun a => Fin.ext (by
    match a with
    | ⟨0, _⟩ => exact (rhs_mm32x1_0 _ _).trans hk
    | ⟨1, _⟩ => exact rhs_mm32x1_1 _ _)
  rw [el, er]

/-! ### The body's arithmetic at one entry of the block -/

/-- The second layer before its rectifier, at row `p` of the block and output channel `j`: the two contractions added,
    the bias, the running mean subtracted, the scale `γ · rsqrt(var + ε)`, the shift. -/
theorem layer_apply (v0 v3 : Vec Ideal S2000x64 .f32) (v6 v9 : Vec Ideal S64x64 .f32)
    (v15 v19 v21 v27 v33 : Vec Ideal S1x64 .f32) (p : Fin 2000) (j : Fin 64) :
    k1_pay2 (F := Ideal) v0 v3 v6 v9 v15 v19 v21 v27 v33 (ix2 p j)
      = (((((∑ k : Fin 64, v0 (ix2 p k) * v6 (ix2 k j)) + (∑ k : Fin 64, v3 (ix2 p k) * v9 (ix2 k j)))
            + v15 (ix2 (0 : Fin 1) j)) - v27 (ix2 (0 : Fin 1) j))
          * (v19 (ix2 (0 : Fin 1) j) * Ideal.rsqrt (v21 (ix2 (0 : Fin 1) j) + eps)) + v33 (ix2 (0 : Fin 1) j)) := by
  unfold k1_pay2
  simp only [shapeCast_self]
  rw [addf_apply, mulf_apply, subf_apply, addf_apply, addf_apply]
  rw [mm64x64_apply, mm64x64_apply]
  rw [broadcastTo_1b_ab_apply, broadcastTo_1b_ab_apply, broadcastTo_1b_ab_apply, broadcastTo_1b_ab_apply]
  rfl

/-- The head at row `p` of the block: the rectified layer output through the 64→32 map and its bias, rectified, through
    the 32→1 map and its bias, then the logistic function. The rectifiers' zero is still the word it is printed as. -/
theorem head_apply (v36 : FVec Ideal S2000x64 .f32) (z : Ideal .f32) (v40 : Vec Ideal S64x32 .f32) (v44 : Vec Ideal S1x32 .f32)
    (v50 : Vec Ideal S32x1 .f32) (v55 : Vec Ideal S1x1 .f32) (p : Fin 2000) :
    k1_pay1 (F := Ideal) v36 z v40 v44 v50 v55 (ix2 p (0 : Fin 1))
      = Ideal.logistic ((∑ k2 : Fin 32, max ((∑ k : Fin 64, max (v36 (ix2 p k)) z * v40 (ix2 k k2)) + v44 (ix2 (0 : Fin 1) k2))
            (Ideal.ofBits .f32 0x00000000#32) * v50 (ix2 k2 (0 : Fin 1))) + v55 (ix2 (0 : Fin 1) (0 : Fin 1))) := by
  unfold k1_pay1
  simp only [shapeCast_self]
  refine congrArg Ideal.logistic ?_
  rw [addf_apply, mm32x1_apply, broadcastTo_1b_ab_apply]
  refine congrArg (· + _) (Finset.sum_congr rfl fun k2 _ => ?_)
  rw [truncf_apply, truncf_apply, maximumf_apply, addf_apply, mm64x32_apply, broadcastTo_1b_ab_apply]
  rfl

/-! ### One node: the body's result is the specification's -/

/-- At a row `p` of the blocks whose two feature rows are node `r`'s rows of the arrays, the body's stored value is
    the specification's value for node `r`: the kernel adds in the specification's order, so only the printed zero
    word has to be read as `0`. -/
theorem node_eq (x0 x1 : Vec Ideal S2000x64 .f32) (wl wr : S64x64.Idx → EReal) (bl g be mu var : S1x64.Idx → EReal)
    (w1 : S64x32.Idx → EReal) (b1 : S1x32.Idx → EReal) (w2 : S32x1.Idx → EReal) (b2 : S1x1.Idx → EReal)
    (agg h : S100000x64.Idx → EReal) (p : Fin 2000) (r : Fin 100000)
    (h0 : ∀ k : Fin 64, x0 (ix2 p k) = agg (ix2 r k)) (h1 : ∀ k : Fin 64, x1 (ix2 p k) = h (ix2 r k)) :
    k1_pay1 (F := Ideal) (k1_pay2 x0 x1 wl wr bl g var mu be) (Scalar.ofBits .f32 0x00000000#32) w1 b1 w2 b2 (ix2 p (0 : Fin 1))
      = outNode agg h (fun k j => wl (ix2 k j)) (fun k j => wr (ix2 k j)) (fun j => bl (ix2 0 j)) (fun j => g (ix2 0 j))
          (fun j => be (ix2 0 j)) (fun j => mu (ix2 0 j)) (fun j => var (ix2 0 j))
          (fun k k2 => w1 (ix2 k k2)) (fun k2 => b1 (ix2 0 k2)) (fun k2 => w2 (ix2 k2 0)) (b2 (ix2 0 0)) r := by
  have hz0 : (Scalar.ofBits .f32 0x00000000#32 : Ideal .f32) = 0 := Ideal.ofBits_zero_f32
  rw [head_apply, hz0, Ideal.ofBits_zero_f32]
  unfold outNode headRow sageRow
  simp only [layer_apply, h0, h1]

/-! ### Where each window's block sits in its array -/

theorem hz : (![0, 0] : Fin 2 → Nat) = fun _ => 0 := funext fun a => by fin_cases a <;> rfl

/-- The printed index maps over the grid's 50 points: the three 2000-row windows (the neighbourhood means, the first
    layer's output, the result column) are at block row `t`, every parameter window at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = t.val
    ∧ win1_13.index t (1 : Fin 2) = 0 :=
  (by decide +kernel : ∀ t : Fin grid1.N, _)

/-! ### The blocks read off their arrays -/

/-- Row `p`, channel `k` of the neighbourhood-mean block at point `t` is row `2000·t + p` of the array. -/
theorem aggBlk_apply (c : Dev nD) (t : Fin cfg1.N) (p : Fin 2000) (k : Fin 64) (r : Fin 100000) (hr : r.val = t.val * 2000 + p.val) :
    (iblk1 V c 0 t : Vec Ideal S2000x64 .f32) (ix2 p k) = aggA V c (ix2 r k) := by
  have e0 := (idx_facts t).1
  have e1 := (idx_facts t).2.1
  unfold iblk1
  rw [View.read_apply]
  show V c main_v43 _ = V c main_v43 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- The same for the block of the first layer's output. -/
theorem hBlk_apply (c : Dev nD) (t : Fin cfg1.N) (p : Fin 2000) (k : Fin 64) (r : Fin 100000) (hr : r.val = t.val * 2000 + p.val) :
    (iblk1 V c 1 t : Vec Ideal S2000x64 .f32) (ix2 p k) = hA V c (ix2 r k) := by
  have e0 := (idx_facts t).2.2.1
  have e1 := (idx_facts t).2.2.2.1
  unfold iblk1
  rw [View.read_apply]
  show V c main_v30 _ = V c main_v30 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 64 + 1 * k.val = k.val; rw [e1]; omega

/-- A parameter's window is its whole array at every point: the left weight matrix. -/
theorem wlBlk (c : Dev nD) (t : Fin cfg1.N) : (iblk1 V c 2 t : Vec Ideal S64x64 .f32) = wlA V c := by
  have e0 := (idx_facts t).2.2.2.2.1
  have e1 := (idx_facts t).2.2.2.2.2.1
  funext x
  unfold iblk1
  rw [View.read_apply]
  show V c main_v44 _ = V c main_v44 x
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

/-- A parameter's window is its whole array at every point: the bias row. -/
theorem blBlk (c : Dev nD) (t : Fin cfg1.N) : (iblk1 V c 3 t : Vec Ideal S1x64 .f32) = blA V c := by
  have e0 := (idx_facts t).2.2.2.2.2.2.1
  have e1 := (idx_facts t).2.2.2.2.2.2.2.1
  funext x
  unfold iblk1
  rw [View.read_apply]
  show V c main_v46 _ = V c main_v46 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- A parameter's window is its whole array at every point: the right weight matrix. -/
theorem wrBlk (c : Dev nD) (t : Fin cfg1.N) : (iblk1 V c 4 t : Vec Ideal S64x64 .f32) = wrA V c := by
  have e0 := (idx_facts t).2.2.2.2.2.2.2.2.1
  have e1 := (idx_facts t).2.2.2.2.2.2.2.2.2.1
  funext x
  unfold iblk1
  rw [View.read_apply]
  show V c main_v45 _ = V c main_v45 x
  congr 1
  funext a
  apply Fin.ext
  match a with
  | ⟨0, _⟩ => show win1_4.index t (0 : Fin 2) * 64 + 1 * (x 0).val = (x 0).val; rw [e0]; omega
  | ⟨1, _⟩ => show win1_4.index t (1 : Fin 2) * 64 + 1 * (x 1).val = (x 1).val; rw [e1]; omega

/-- A parameter's window is its whole array at every point: the scale row. -/
theorem gBlk (c : Dev nD) (t : Fin cfg1.N) : (iblk1 V c 5 t : Vec Ideal S1x64 .f32) = gA V c := by
  have e0 := (idx_facts t).2.2.2.2.2.2.2.2.2.2.1
  have e1 := (idx_facts t).2.2.2.2.2.2.2.2.2.2.2.1
  funext x
  unfold iblk1
  rw [View.read_apply]
  show V c main_v47 _ = V c main_v47 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- A parameter's window is its whole array at every point: the shift row. -/
theorem beBlk (c : Dev nD) (t : Fin cfg1.N) : (iblk1 V c 6 t : Vec Ideal S1x64 .f32) = beA V c := by
  have e0 := (idx_facts t).2.2.2.2.2.2.2.2.2.2.2.2.1
  have e1 := (idx_facts t).2.2.2.2.2.2.2.2.2.2.2.2.2.1
  funext x
  unfold iblk1
  rw [View.read_apply]
  show V c main_v48 _ = V c main_v48 x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-- A parameter's window is its whole array at every point: the running-mean row. -/
theorem muBlk (c : Dev nD) (t : Fin cfg1.N) : (iblk1 V c 7 t : Vec Ideal S1x64 .f32) = muA V c := by
  have e0 := (idx_facts t).2.2.2.2.2.2.2.2.2.2.2.2.2.2.1
  have e1 := (idx_facts t).2.2.2.2.2.2.2.2.2.2.2.2.2.2.2.1
  funext x
  unfold iblk1
  rw [View.read_apply]
  show V c main_v49 _ = V c main_v49 x
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 64 + 1 * (x 1).val = (x 1).val; rw [e1]; omega

/-- A parameter's window is its whole array at every point: the running-variance row. -/
theorem varBlk (c : Dev nD) (t : Fin cfg1.N) : (iblk1 V c 8 t : Vec Ideal S1x64 .f32) = varA V c := by
  have e0 := (idx_facts t).2.2.2.2.2.2.2.2.2.2.2.2.2.2.2.2.1
  have e1 := (idx_facts t).2.2.2.2.2.2.2.2.2.2.2.2.2.2.2.2.2.1
  funext x
  unfold iblk1
  rw [View.read_apply]
  show V c main_v50 _ = V c main_v50 x
  congr 1
  funext a
  apply Fin.ext
  match a with
  | ⟨0, _⟩ => show win1_8.index t (0 : Fin 2) * 1 + 1 * (x 0).val = (x 0).val; rw [e0]; omega
  | ⟨1, _⟩ => show win1_8.index t (1 : Fin 2) * 64 + 1 * (x 1).val = (x 1).val; rw [e1]; omega

/-- A parameter's window is its whole array at every point: the head's first matrix. -/
theorem w1Blk (c : Dev nD) (t : Fin cfg1.N) : (iblk1 V c 9 t : Vec Ideal S64x32 .f32) = w1A V c := by
  have e0 := (idx_facts t).2.2.2.2.2.2.2.2.2.2.2.2.2.2.2.2.2.2.1
  have e1 := (idx_facts t).2.2.2.2.2.2.2.2.2.2.2.2.2.2.2.2.2.2.2.1
  funext x
  unfold iblk1
  rw [View.read_apply]
  show V c main_v51 _ = V c main_v51 x
  congr 1
  funext a
  apply Fin.ext
  match a with
  | ⟨0, _⟩ => show win1_9.index t (0 : Fin 2) * 64 + 1 * (x 0).val = (x 0).val; rw [e0]; omega
  | ⟨1, _⟩ => show win1_9.index t (1 : Fin 2) * 32 + 1 * (x 1).val = (x 1).val; rw [e1]; omega

/-- A parameter's window is its whole array at every point: the head's first bias row. -/
theorem b1Blk (c : Dev nD) (t : Fin cfg1.N) : (iblk1 V c 10 t : Vec Ideal S1x32 .f32) = b1A V c := by
  have e0 := (idx_facts t).2.2.2.2.2.2.2.2.2.2.2.2.2.2.2.2.2.2.2.2.1
  have e1 := (idx_facts t).2.2.2.2.2.2.2.2.2.2.2.2.2.2.2.2.2.2.2.2.2.1
  funext x
  unfold iblk1
  rw [View.read_apply]
  show V c main_v52 _ = V c main_v52 x
  congr 1
  funext a
  apply Fin.ext
  match a with
  | ⟨0, _⟩ => show win1_10.index t (0 : Fin 2) * 1 + 1 * (x 0).val = (x 0).val; rw [e0]; omega
  | ⟨1, _⟩ => show win1_10.index t (1 : Fin 2) * 32 + 1 * (x 1).val = (x 1).val; rw [e1]; omega

/-- A parameter's window is its whole array at every point: the head's second matrix. -/
theorem w2Blk (c : Dev nD) (t : Fin cfg1.N) : (iblk1 V c 11 t : Vec Ideal S32x1 .f32) = w2A V c := by
  have e0 := (idx_facts t).2.2.2.2.2.2.2.2.2.2.2.2.2.2.2.2.2.2.2.2.2.2.1
  have e1 := (idx_facts t).2.2.2.2.2.2.2.2.2.2.2.2.2.2.2.2.2.2.2.2.2.2.2.1
  funext x
  unfold iblk1
  rw [View.read_apply]
  show V c main_v53 _ = V c main_v53 x
  congr 1
  funext a
  apply Fin.ext
  match a with
  | ⟨0, _⟩ => show win1_11.index t (0 : Fin 2) * 32 + 1 * (x 0).val = (x 0).val; rw [e0]; omega
  | ⟨1, _⟩ => show win1_11.index t (1 : Fin 2) * 1 + 1 * (x 1).val = (x 1).val; rw [e1]; omega

/-- A parameter's window is its whole array at every point: the head's last bias. -/
theorem b2Blk (c : Dev nD) (t : Fin cfg1.N) : (iblk1 V c 12 t : Vec Ideal S1x1 .f32) = b2A V c := by
  have e0 := (idx_facts t).2.2.2.2.2.2.2.2.2.2.2.2.2.2.2.2.2.2.2.2.2.2.2.2.1
  have e1 := (idx_facts t).2.2.2.2.2.2.2.2.2.2.2.2.2.2.2.2.2.2.2.2.2.2.2.2.2.1
  funext x
  unfold iblk1
  rw [View.read_apply]
  show V c main_v54 _ = V c main_v54 x
  congr 1
  funext a
  apply Fin.ext
  match a with
  | ⟨0, _⟩ => show win1_12.index t (0 : Fin 2) * 1 + 1 * (x 0).val = (x 0).val; rw [e0]; omega
  | ⟨1, _⟩ => show win1_12.index t (1 : Fin 2) * 1 + 1 * (x 1).val = (x 1).val; rw [e1]; omega

/-! ### From the blocks to the array -/

/-- The result column as one function of the arrays the region finds. -/
abbrev resultCol (c : Dev nD) : S100000x1.Idx → EReal :=
  outCol (aggA V c) (hA V c) (fun k j => wlA V c (ix2 k j)) (fun k j => wrA V c (ix2 k j))
      (fun j => blA V c (ix2 0 j)) (fun j => gA V c (ix2 0 j)) (fun j => beA V c (ix2 0 j))
      (fun j => muA V c (ix2 0 j)) (fun j => varA V c (ix2 0 j))
      (fun k k2 => w1A V c (ix2 k k2)) (fun k2 => b1A V c (ix2 0 k2)) (fun k2 => w2A V c (ix2 k2 0)) (b2A V c (ix2 0 0))

/-- What point `t` writes back is its block — rows `2000·t … 2000·t + 1999` — of that column. -/
theorem flushed_eq (c : Dev nD) (t : Fin cfg1.N) :
    (dat1 (F := Ideal) V c).flushed 13 t = ((cfg1.win 13).blk t).view.read (Elt Ideal) (resultCol V c) := by
  show (cfg1.win 13).cut (grid1.coords t) ((dat1 (F := Ideal) V c).after 13 t) = _
  rw [after1_13]
  unfold out1_13
  rw [View.canon_unit_zero hz]
  simp only [View.ld_unit_zero (S := S2000x64) hz, View.ld_unit_zero (S := S64x64) hz, View.ld_unit_zero (S := S1x64) hz,
    View.ld_unit_zero (S := S64x32) hz, View.ld_unit_zero (S := S1x32) hz, View.ld_unit_zero (S := S32x1) hz,
    View.ld_unit_zero (S := S1x1) hz]
  rw [wlBlk, wrBlk, blBlk, gBlk, beBlk, muBlk, varBlk, w1Blk, b1Blk, w2Blk, b2Blk]
  have e0 := (idx_facts t).2.2.2.2.2.2.2.2.2.2.2.2.2.2.2.2.2.2.2.2.2.2.2.2.2.2.1
  have e1 := (idx_facts t).2.2.2.2.2.2.2.2.2.2.2.2.2.2.2.2.2.2.2.2.2.2.2.2.2.2.2
  have ht : t.val < 50 := Nat.lt_of_lt_of_eq t.isLt (show cfg1.N = 50 from N_1)
  funext y
  obtain ⟨p, q, rfl⟩ : ∃ (p : Fin 2000) (q : Fin 1), y = ix2 p q := ⟨y 0, y 1, eq_ix2 y⟩
  obtain rfl : q = 0 := Subsingleton.elim _ _
  have hp : p.val < 2000 := p.isLt
  obtain ⟨r, hr⟩ : ∃ r : Fin 100000, r.val = t.val * 2000 + p.val := ⟨⟨t.val * 2000 + p.val, by omega⟩, rfl⟩
  have hemb : ((cfg1.win 13).blk t).view.emb (ix2 p (0 : Fin 1)) = ix2 r (0 : Fin 1) := by
    funext a
    apply Fin.ext
    match a with
    | ⟨0, _⟩ => show win1_13.index t (0 : Fin 2) * 2000 + 1 * p.val = r.val; rw [e0, hr]; omega
    | ⟨1, _⟩ => show win1_13.index t (1 : Fin 2) * 1 + 1 * 0 = 0; rw [e1]
  rw [View.read_apply]
  show _ = resultCol V c (((cfg1.win 13).blk t).view.emb (ix2 p (0 : Fin 1)))
  rw [hemb]
  exact node_eq (iblk1 V c 0 t) (iblk1 V c 1 t) (wlA V c) (wrA V c) (blA V c) (gA V c) (beA V c) (muA V c) (varA V c)
    (w1A V c) (b1A V c) (w2A V c) (b2A V c) (aggA V c) (hA V c) p r
    (fun k => aggBlk_apply V c t p k r hr) (fun k => hBlk_apply V c t p k r hr)

/-- An index of the column is in point `t`'s block iff each coordinate is in the block's range on its axis. -/
theorem mem_blk (t : Fin cfg1.N) (i : S100000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v55).slice (win1_13.rect t)).set ↔ _
  rw [View.set_slice_whole, Rect.mem_set_unit]
  exact Iff.rfl

/-- The 50 blocks of 2000 rows tile the 100000 rows: row `r` is in the block of point `r / 2000`. -/
theorem cover (i : S100000x1.Idx) :
    ∃ t : Fin cfg1.N, (cfg1.win 13).flush t = true ∧ i ∈ ((cfg1.win 13).blk t).view.set := by
  have hi0 : (i 0).val < 100000 := (i 0).isLt
  have hi1 : (i 1).val < 1 := (i 1).isLt
  obtain ⟨t, htv⟩ : ∃ t : Fin cfg1.N, t.val = (i 0).val / 2000 :=
    ⟨⟨(i 0).val / 2000, by rw [show cfg1.N = 50 from N_1]; omega⟩, rfl⟩
  have e0 := (idx_facts t).2.2.2.2.2.2.2.2.2.2.2.2.2.2.2.2.2.2.2.2.2.2.2.2.2.2.1
  have e1 := (idx_facts t).2.2.2.2.2.2.2.2.2.2.2.2.2.2.2.2.2.2.2.2.2.2.2.2.2.2.2
  refine ⟨t, flush1_13 t, ?_⟩
  rw [mem_blk]
  intro a
  match a with
  | ⟨0, _⟩ => show win1_13.index t (0 : Fin 2) * 2000 ≤ (i 0).val ∧ (i 0).val < win1_13.index t (0 : Fin 2) * 2000 + 2000; rw [e0, htv]; omega
  | ⟨1, _⟩ => show win1_13.index t (1 : Fin 2) * 1 ≤ (i 1).val ∧ (i 1).val < win1_13.index t (1 : Fin 2) * 1 + 1; rw [e1]; omega

theorem final (c : Dev nD) :
    (dat1 (F := Ideal) V c).arrAt 13 cfg1.N
      = outCol (aggA V c) (hA V c) (fun k j => wlA V c (ix2 k j)) (fun k j => wrA V c (ix2 k j))
          (fun j => blA V c (ix2 0 j)) (fun j => gA V c (ix2 0 j)) (fun j => beA V c (ix2 0 j))
          (fun j => muA V c (ix2 0 j)) (fun j => varA V c (ix2 0 j))
          (fun k k2 => w1A V c (ix2 k k2)) (fun k2 => b1A V c (ix2 0 k2)) (fun k2 => w2A V c (ix2 k2 0)) (b2A V c (ix2 0 0)) := by
  exact (dat1 (F := Ideal) V c).arrAt_eq_of_cover 13 (resultCol V c) (fun t _ => flushed_eq V c t) cover

end Cert.KernelIdeal.Layer2

end
-- ==== Proof.Net.lean ====
/-
  The whole network as ONE function of the twenty argument arrays, the common value of both programs: the edge rows
  and clamped in-degrees, the first layer on the neighbourhood mean of the features, the second layer on the
  neighbourhood mean of the first layer's output, and the perceptron head, node by node. The weight matrices arrive as
  (output channel, input channel) arrays, so channel (k, j) of a layer's matrix reads the array at (j, k); the biases
  and normalisation parameters arrive as vectors.
-/
import proofs.«113890_j68453188764197_1_alg».proof.Proof.Spec
import proofs.«113890_j68453188764197_1_alg».proof.Proof.Glue

noncomputable section

namespace Cert.Net

open Cert.KernelIdeal Cert.Spec Cert.Glue Idealize.ShloMosaic Idealize.ShloMosaic.ValueIdx

/-- The first layer's output from the features, the edge list and the layer's parameters. -/
def layer1 (x : S100000x64.Idx → EReal) (e : (⟨S2x1200000, .i32⟩ : BufTy).Contents (Elt Ideal))
    (wl : S64x64.Idx → EReal) (bl : S64.Idx → EReal) (wr : S64x64.Idx → EReal) (g be mu var : S64.Idx → EReal) : S100000x64.Idx → EReal :=
  sageArr (meanAgg (F := Ideal) x (srcOf e) (dstOf e) (cntOf (dstOf e))) x (fun k j => wl (ix2 j k)) (fun k j => wr (ix2 j k))
    (fun j => bl (ix1 j)) (fun j => g (ix1 j)) (fun j => be (ix1 j)) (fun j => mu (ix1 j)) (fun j => var (ix1 j))

/-- The network's output, one value per node. -/
def net (x : S100000x64.Idx → EReal) (e : (⟨S2x1200000, .i32⟩ : BufTy).Contents (Elt Ideal))
    (wl1 : S64x64.Idx → EReal) (bl1 : S64.Idx → EReal) (wr1 : S64x64.Idx → EReal) (g1 be1 mu1 var1 : S64.Idx → EReal)
    (wl2 : S64x64.Idx → EReal) (bl2 : S64.Idx → EReal) (wr2 : S64x64.Idx → EReal) (g2 be2 mu2 var2 : S64.Idx → EReal)
    (mw1 : S32x64.Idx → EReal) (mb1 : S32.Idx → EReal) (mw2 : S1x32.Idx → EReal) (mb2 : S1.Idx → EReal) : S100000.Idx → EReal :=
  outVec (meanAgg (F := Ideal) (layer1 x e wl1 bl1 wr1 g1 be1 mu1 var1) (srcOf e) (dstOf e) (cntOf (dstOf e)))
    (layer1 x e wl1 bl1 wr1 g1 be1 mu1 var1)
    (fun k j => wl2 (ix2 j k)) (fun k j => wr2 (ix2 j k))
    (fun j => bl2 (ix1 j)) (fun j => g2 (ix1 j)) (fun j => be2 (ix1 j)) (fun j => mu2 (ix1 j)) (fun j => var2 (ix1 j))
    (fun k k2 => mw1 (ix2 k2 k)) (fun k2 => mb1 (ix1 k2)) (fun k2 => mw2 (ix2 0 k2)) (mb2 (ix1 0))

end Cert.Net

end
-- ==== Proof.KNet.lean ====
/-
  The kernel program's result buffer holds the network function of its arguments. The first region's output array is
  the first layer (its per-block value, read through the host operations that prepared its operands: a transposed
  weight matrix read at (k, j) is the argument at (j, k), a vector kept as a one-row matrix read at (0, j) is the
  vector at j); the second stretch's neighbourhood mean is the shared graph operation applied to that array; the second
  region's output column is the second layer and the head on it; the last reshape drops the unit axis.
-/
import proofs.«113890_j68453188764197_1_alg».proof.Proof.KHost
import proofs.«113890_j68453188764197_1_alg».proof.Proof.KLayer1
import proofs.«113890_j68453188764197_1_alg».proof.Proof.KLayer2
import proofs.«113890_j68453188764197_1_alg».proof.Proof.Net
import Idealize.ShloMosaic.Lib.Pipeline.Value
import Idealize.ShloMosaic.Lib.ValueLayout

set_option maxRecDepth 16384

noncomputable section

namespace Cert.KernelIdeal.KNet

open Cert.KernelIdeal Cert.KernelIdeal.Gen Cert.KernelIdeal.GenP Cert.KernelIdeal.HostRead Cert.Spec Cert.Glue Cert.Net
open Idealize.ShloMosaic Idealize.ShloMosaic.TcCoe Idealize.ShloMosaic.ValueIdx Idealize.SL.Sem

/-- A one-column matrix cast to a vector reads, at `i`, the column's entry in row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (ρ : Dev nD → PrngReg) (c : Dev nD)

/-! The argument arrays, at their literal types. -/
abbrev a0 : S100000x64.Idx → EReal := m ((c : Thread nD τ).loc main_arg0)
abbrev a1 : (⟨S2x1200000, .i32⟩ : BufTy).Contents (Elt Ideal) := m ((c : Thread nD τ).loc main_arg1)
abbrev a2 : S64x64.Idx → EReal := m ((c : Thread nD τ).loc main_arg2)
abbrev a3 : S64.Idx → EReal := m ((c : Thread nD τ).loc main_arg3)
abbrev a4 : S64x64.Idx → EReal := m ((c : Thread nD τ).loc main_arg4)
abbrev a5 : S64.Idx → EReal := m ((c : Thread nD τ).loc main_arg5)
abbrev a6 : S64.Idx → EReal := m ((c : Thread nD τ).loc main_arg6)
abbrev a7 : S64.Idx → EReal := m ((c : Thread nD τ).loc main_arg7)
abbrev a8 : S64.Idx → EReal := m ((c : Thread nD τ).loc main_arg8)
abbrev a9 : S64x64.Idx → EReal := m ((c : Thread nD τ).loc main_arg9)
abbrev a10 : S64.Idx → EReal := m ((c : Thread nD τ).loc main_arg10)
abbrev a11 : S64x64.Idx → EReal := m ((c : Thread nD τ).loc main_arg11)
abbrev a12 : S64.Idx → EReal := m ((c : Thread nD τ).loc main_arg12)
abbrev a13 : S64.Idx → EReal := m ((c : Thread nD τ).loc main_arg13)
abbrev a14 : S64.Idx → EReal := m ((c : Thread nD τ).loc main_arg14)
abbrev a15 : S64.Idx → EReal := m ((c : Thread nD τ).loc main_arg15)
abbrev a16 : S32x64.Idx → EReal := m ((c : Thread nD τ).loc main_arg16)
abbrev a17 : S32.Idx → EReal := m ((c : Thread nD τ).loc main_arg17)
abbrev a18 : S1x32.Idx → EReal := m ((c : Thread nD τ).loc main_arg18)
abbrev a19 : S1.Idx → EReal := m ((c : Thread nD τ).loc main_arg19)

/-- The first region's output array is the first layer of the arguments. -/
theorem h1_eq : (dat0 (F := Ideal) (V1 m ρ) c).arrAt 9 cfg0.N = (layer1 (a0 m c) (a1 m c) (a2 m c) (a3 m c) (a4 m c) (a5 m c) (a6 m c) (a7 m c) (a8 m c)) := by
  rw [Cert.KernelIdeal.Layer1.final (V1 m ρ) c]
  have hagg : Cert.KernelIdeal.Layer1.aggA (V1 m ρ) c = meanAgg (F := Ideal) (a0 m c) (srcOf (a1 m c)) (dstOf (a1 m c)) (cntOf (dstOf (a1 m c))) := W1_agg m ρ c
  have hx : Cert.KernelIdeal.Layer1.xA (V1 m ρ) c = (a0 m c) := W1_x m ρ c
  have hwl : (fun (k j : Fin 64) => Cert.KernelIdeal.Layer1.wlA (V1 m ρ) c (ix2 k j)) = fun k j => (a2 m c) (ix2 j k) := by
    funext k j
    rw [show Cert.KernelIdeal.Layer1.wlA (V1 m ρ) c = transpose S64x64 [1, 0] (a2 m c) transposes_S64x64_S64x64_1_0 from W1_wl m ρ c]
    exact transpose_ix2_apply (a2 m c) _ k j
  have hwr : (fun (k j : Fin 64) => Cert.KernelIdeal.Layer1.wrA (V1 m ρ) c (ix2 k j)) = fun k j => (a4 m c) (ix2 j k) := by
    funext k j
    rw [show Cert.KernelIdeal.Layer1.wrA (V1 m ρ) c = transpose S64x64 [1, 0] (a4 m c) transposes_S64x64_S64x64_1_0 from W1_wr m ρ c]
    exact transpose_ix2_apply (a4 m c) _ k j
  have hbl : (fun (j : Fin 64) => Cert.KernelIdeal.Layer1.blA (V1 m ρ) c (ix2 0 j)) = fun j => (a3 m c) (ix1 j) := by
    funext j
    rw [show Cert.KernelIdeal.Layer1.blA (V1 m ρ) c = shapeCast S1x64 (a3 m c) shapeCasts_S64_S1x64 from W1_bl m ρ c]
    exact shapeCast_a_1a_apply (a3 m c) _ 0 j
  have hg : (fun (j : Fin 64) => Cert.KernelIdeal.Layer1.gA (V1 m ρ) c (ix2 0 j)) = fun j => (a5 m c) (ix1 j) := by
    funext j
    rw [show Cert.KernelIdeal.Layer1.gA (V1 m ρ) c = shapeCast S1x64 (a5 m c) shapeCasts_S64_S1x64 from W1_g m ρ c]
    exact shapeCast_a_1a_apply (a5 m c) _ 0 j
  have hbe : (fun (j : Fin 64) => Cert.KernelIdeal.Layer1.beA (V1 m ρ) c (ix2 0 j)) = fun j => (a6 m c) (ix1 j) := by
    funext j
    rw [show Cert.KernelIdeal.Layer1.beA (V1 m ρ) c = shapeCast S1x64 (a6 m c) shapeCasts_S64_S1x64 from W1_be m ρ c]
    exact shapeCast_a_1a_apply (a6 m c) _ 0 j
  have hmu : (fun (j : Fin 64) => Cert.KernelIdeal.Layer1.muA (V1 m ρ) c (ix2 0 j)) = fun j => (a7 m c) (ix1 j) := by
    funext j
    rw [show Cert.KernelIdeal.Layer1.muA (V1 m ρ) c = shapeCast S1x64 (a7 m c) shapeCasts_S64_S1x64 from W1_mu m ρ c]
    exact shapeCast_a_1a_apply (a7 m c) _ 0 j
  have hvar : (fun (j : Fin 64) => Cert.KernelIdeal.Layer1.varA (V1 m ρ) c (ix2 0 j)) = fun j => (a8 m c) (ix1 j) := by
    funext j
    rw [show Cert.KernelIdeal.Layer1.varA (V1 m ρ) c = shapeCast S1x64 (a8 m c) shapeCasts_S64_S1x64 from W1_var m ρ c]
    exact shapeCast_a_1a_apply (a8 m c) _ 0 j
  rw [hagg, hx, hwl, hwr, hbl, hg, hbe, hmu, hvar]
  rfl

/-- The second region's output column is the second layer and the head, on the first layer and its neighbourhood mean. -/
theorem out_eq : (dat1 (F := Ideal) (V3 m ρ) c).arrAt 13 cfg1.N
    = outCol (meanAgg (F := Ideal) (layer1 (a0 m c) (a1 m c) (a2 m c) (a3 m c) (a4 m c) (a5 m c) (a6 m c) (a7 m c) (a8 m c)) (srcOf (a1 m c)) (dstOf (a1 m c)) (cntOf (dstOf (a1 m c)))) (layer1 (a0 m c) (a1 m c) (a2 m c) (a3 m c) (a4 m c) (a5 m c) (a6 m c) (a7 m c) (a8 m c))
        (fun k j => (a9 m c) (ix2 j k)) (fun k j => (a11 m c) (ix2 j k))
        (fun j => (a10 m c) (ix1 j)) (fun j => (a12 m c) (ix1 j)) (fun j => (a13 m c) (ix1 j)) (fun j => (a14 m c) (ix1 j)) (fun j => (a15 m c) (ix1 j))
        (fun k k2 => (a16 m c) (ix2 k2 k)) (fun k2 => (a17 m c) (ix1 k2)) (fun k2 => (a18 m c) (ix2 0 k2)) ((a19 m c) (ix1 0)) := by
  rw [Cert.KernelIdeal.Layer2.final (V3 m ρ) c]
  have hagg : Cert.KernelIdeal.Layer2.aggA (V3 m ρ) c = meanAgg (F := Ideal) (layer1 (a0 m c) (a1 m c) (a2 m c) (a3 m c) (a4 m c) (a5 m c) (a6 m c) (a7 m c) (a8 m c)) (srcOf (a1 m c)) (dstOf (a1 m c)) (cntOf (dstOf (a1 m c))) :=
    (W3_agg m ρ c).trans (congrArg (fun H => meanAgg (F := Ideal) H (srcOf (a1 m c)) (dstOf (a1 m c)) (cntOf (dstOf (a1 m c)))) (h1_eq m ρ c))
  have hh : Cert.KernelIdeal.Layer2.hA (V3 m ρ) c = (layer1 (a0 m c) (a1 m c) (a2 m c) (a3 m c) (a4 m c) (a5 m c) (a6 m c) (a7 m c) (a8 m c)) := (W3_h m ρ c).trans (h1_eq m ρ c)
  have hwl : (fun (k j : Fin 64) => Cert.KernelIdeal.Layer2.wlA (V3 m ρ) c (ix2 k j)) = fun k j => (a9 m c) (ix2 j k) := by
    funext k j
    rw [show Cert.KernelIdeal.Layer2.wlA (V3 m ρ) c = transpose S64x64 [1, 0] (a9 m c) transposes_S64x64_S64x64_1_0 from W3_wl m ρ c]
    exact transpose_ix2_apply (a9 m c) _ k j
  have hwr : (fun (k j : Fin 64) => Cert.KernelIdeal.Layer2.wrA (V3 m ρ) c (ix2 k j)) = fun k j => (a11 m c) (ix2 j k) := by
    funext k j
    rw [show Cert.KernelIdeal.Layer2.wrA (V3 m ρ) c = transpose S64x64 [1, 0] (a11 m c) transposes_S64x64_S64x64_1_0 from W3_wr m ρ c]
    exact transpose_ix2_apply (a11 m c) _ k j
  have hbl : (fun (j : Fin 64) => Cert.KernelIdeal.Layer2.blA (V3 m ρ) c (ix2 0 j)) = fun j => (a10 m c) (ix1 j) := by
    funext j
    rw [show Cert.KernelIdeal.Layer2.blA (V3 m ρ) c = shapeCast S1x64 (a10 m c) shapeCasts_S64_S1x64 from W3_bl m ρ c]
    exact shapeCast_a_1a_apply (a10 m c) _ 0 j
  have hg : (fun (j : Fin 64) => Cert.KernelIdeal.Layer2.gA (V3 m ρ) c (ix2 0 j)) = fun j => (a12 m c) (ix1 j) := by
    funext j
    rw [show Cert.KernelIdeal.Layer2.gA (V3 m ρ) c = shapeCast S1x64 (a12 m c) shapeCasts_S64_S1x64 from W3_g m ρ c]
    exact shapeCast_a_1a_apply (a12 m c) _ 0 j
  have hbe : (fun (j : Fin 64) => Cert.KernelIdeal.Layer2.beA (V3 m ρ) c (ix2 0 j)) = fun j => (a13 m c) (ix1 j) := by
    funext j
    rw [show Cert.KernelIdeal.Layer2.beA (V3 m ρ) c = shapeCast S1x64 (a13 m c) shapeCasts_S64_S1x64 from W3_be m ρ c]
    exact shapeCast_a_1a_apply (a13 m c) _ 0 j
  have hmu : (fun (j : Fin 64) => Cert.KernelIdeal.Layer2.muA (V3 m ρ) c (ix2 0 j)) = fun j => (a14 m c) (ix1 j) := by
    funext j
    rw [show Cert.KernelIdeal.Layer2.muA (V3 m ρ) c = shapeCast S1x64 (a14 m c) shapeCasts_S64_S1x64 from W3_mu m ρ c]
    exact shapeCast_a_1a_apply (a14 m c) _ 0 j
  have hvar : (fun (j : Fin 64) => Cert.KernelIdeal.Layer2.varA (V3 m ρ) c (ix2 0 j)) = fun j => (a15 m c) (ix1 j) := by
    funext j
    rw [show Cert.KernelIdeal.Layer2.varA (V3 m ρ) c = shapeCast S1x64 (a15 m c) shapeCasts_S64_S1x64 from W3_var m ρ c]
    exact shapeCast_a_1a_apply (a15 m c) _ 0 j
  have hw1 : (fun (k : Fin 64) (k2 : Fin 32) => Cert.KernelIdeal.Layer2.w1A (V3 m ρ) c (ix2 k k2)) = fun k k2 => (a16 m c) (ix2 k2 k) := by
    funext k k2
    rw [show Cert.KernelIdeal.Layer2.w1A (V3 m ρ) c = transpose S64x32 [1, 0] (a16 m c) transposes_S32x64_S64x32_1_0 from W3_w1 m ρ c]
    exact transpose_ix2_apply (a16 m c) _ k k2
  have hb1 : (fun (k2 : Fin 32) => Cert.KernelIdeal.Layer2.b1A (V3 m ρ) c (ix2 0 k2)) = fun k2 => (a17 m c) (ix1 k2) := by
    funext k2
    rw [show Cert.KernelIdeal.Layer2.b1A (V3 m ρ) c = shapeCast S1x32 (a17 m c) shapeCasts_S32_S1x32 from W3_b1 m ρ c]
    exact shapeCast_a_1a_apply (a17 m c) _ 0 k2
  have hw2 : (fun (k2 : Fin 32) => Cert.KernelIdeal.Layer2.w2A (V3 m ρ) c (ix2 k2 0)) = fun k2 => (a18 m c) (ix2 0 k2) := by
    funext k2
    rw [show Cert.KernelIdeal.Layer2.w2A (V3 m ρ) c = transpose S32x1 [1, 0] (a18 m c) transposes_S1x32_S32x1_1_0 from W3_w2 m ρ c]
    exact transpose_ix2_apply (a18 m c) _ k2 0
  have hb2 : Cert.KernelIdeal.Layer2.b2A (V3 m ρ) c (ix2 0 0) = (a19 m c) (ix1 0) := by
    rw [show Cert.KernelIdeal.Layer2.b2A (V3 m ρ) c = shapeCast S1x1 (a19 m c) shapeCasts_S1_S1x1 from W3_b2 m ρ c]
    exact shapeCast_a_1a_apply (a19 m c) _ 0 0
  rw [hagg, hh, hwl, hwr, hbl, hg, hbe, hmu, hvar, hw1, hb1, hw2, hb2]

/-- The result buffer after the last host stretch: the network function of the argument arrays. -/
theorem value : W5 m ρ c (Proc.devRef .tc main_v56) = net (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) := by
  rw [W5_out m ρ c, out_eq m ρ c]
  funext i
  obtain ⟨r, rfl⟩ : ∃ r : Fin 100000, i = ix1 r := ⟨i 0, eq_ix1 i⟩
  exact (shapeCast_a1_a_apply _ _ r).trans rfl

end Cert.KernelIdeal.KNet

end
-- ==== Proof.RefLayers.lean ====
/-
  The reference's two graph-convolution layers and its perceptron head, read entry by entry. A layer at node `r`, channel `j` is
  max ((((Σₖ a k · wl k j) + bl j) + (Σₖ x k · wr k j) − mu j) · (g j · rsqrt (var j + ε)) + be j) 0: the weight matrices enter
  transposed, the channel vectors are broadcast along the nodes, and the bias comes before the second linear map (commutativity of +
  on the extended reals gives the specification's order). The head is 1 / (1 + exp (−z)), the logistic function, at
  z = (Σ_{k₂} max ((Σₖ h k · w1 k k₂) + b1 k₂) 0 · w2 k₂) + b2. The neighbourhood means stay arrays that are only read at an index.
-/
import proofs.«113890_j68453188764197_1_alg».proof.Proof.Gen.ReferenceIdeal.Read
import proofs.«113890_j68453188764197_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Cert.Spec
open Idealize.ShloMosaic Idealize.ShloMosaic.TcCoe Idealize.ShloMosaic.ValueIdx

/-- The first layer: the rectified, normalised sum of the two linear maps and the bias, entry by entry. -/
theorem layer1 (x0 : S100000x64.Idx → EReal) (x1 : (⟨S2x1200000, .i32⟩ : BufTy).Contents (Elt Ideal)) (x2 : S64x64.Idx → EReal) (x3 : S64.Idx → EReal)
    (x4 : S64x64.Idx → EReal) (x5 x6 x7 x8 : S64.Idx → EReal) :
    val_main_v44 (F := Ideal) x0 x1 x2 x3 x4 x5 x6 x7 x8
      = sageArr (val_main_v22 (F := Ideal) x0 x1) x0 (fun k j => x2 (ix2 j k)) (fun k j => x4 (ix2 j k))
          (fun j => x3 (ix1 j)) (fun j => x5 (ix1 j)) (fun j => x6 (ix1 j)) (fun j => x7 (ix1 j)) (fun j => x8 (ix1 j)) := by
  funext i
  obtain ⟨r, j, rfl⟩ : ∃ (r : Fin 100000) (j : Fin 64), i = ix2 r j := ⟨i 0, i 1, eq_ix2 i⟩
  rw [val_main_v44_apply, val_main_v43_apply, val_main_v40_apply, val_main_v33_apply, val_main_v30_apply, val_main_v27_apply,
    val_main_v24_apply, val_main_v26_apply, val_main_v25_apply, val_main_v29_apply, val_main_v32_apply, val_main_v31_apply,
    val_main_v39_apply, val_main_v38_apply, val_main_v37_apply, val_main_v36_apply, val_main_v35_apply, val_main_v34_apply,
    val_main_cst_4_apply, val_main_v42_apply, val_main_v41_apply, val_main_call0_v0_apply, val_main_call0_cst_apply]
  simp only [val_main_v23_apply, val_main_v28_apply]
  have eL : ∀ k : Fin 64, lidx_main_v24 (ix2 r j) k = ix2 r k := fun k =>
    funext fun a => Fin.ext (by match a with | ⟨0, _⟩ => rfl | ⟨1, _⟩ => rfl)
  have eWl : ∀ k : Fin 64, idx_main_v23 (ridx_main_v24 (ix2 r j) k) = ix2 j k := fun k =>
    funext fun a => Fin.ext (by match a with | ⟨0, _⟩ => rfl | ⟨1, _⟩ => rfl)
  have eX : ∀ k : Fin 64, lidx_main_v29 (ix2 r j) k = ix2 r k := fun k =>
    funext fun a => Fin.ext (by match a with | ⟨0, _⟩ => rfl | ⟨1, _⟩ => rfl)
  have eWr : ∀ k : Fin 64, idx_main_v28 (ridx_main_v29 (ix2 r j) k) = ix2 j k := fun k =>
    funext fun a => Fin.ext (by match a with | ⟨0, _⟩ => rfl | ⟨1, _⟩ => rfl)
  have eB : idx_main_v25 (idx_main_v26 (ix2 r j)) = ix1 j :=
    funext fun a => Fin.ext (by match a with | ⟨0, _⟩ => rfl)
  have eM : idx_main_v31 (idx_main_v32 (ix2 r j)) = ix1 j :=
    funext fun a => Fin.ext (by match a with | ⟨0, _⟩ => rfl)
  have eG : idx_main_v38 (idx_main_v39 (ix2 r j)) = ix1 j :=
    funext fun a => Fin.ext (by match a with | ⟨0, _⟩ => rfl)
  have eBe : idx_main_v41 (idx_main_v42 (ix2 r j)) = ix1 j :=
    funext fun a => Fin.ext (by match a with | ⟨0, _⟩ => rfl)
  simp only [eL, eWl, eX, eWr, eB, eM, eG, eBe, Ideal.maximumf_def, Ideal.addf_def, Ideal.mulf_def, Ideal.subf_def,
    Ideal.hostUnary_rsqrt_def, Ideal.ofBits_def, Ideal.ofBits_zero_f32]
  exact sageRow_bias_first (fun k => val_main_v22 (F := Ideal) x0 x1 (ix2 r k)) (fun k => x0 (ix2 r k))
    (fun k j => x2 (ix2 j k)) (fun k j => x4 (ix2 j k)) (fun j => x3 (ix1 j)) (fun j => x5 (ix1 j)) (fun j => x6 (ix1 j))
    (fun j => x7 (ix1 j)) (fun j => x8 (ix1 j)) j

/-- The second layer at node `r`, channel `j`: the same row formula as the first layer, now over the second
    neighbourhood means and the first layer's output, both left as arrays read along row `r`. -/
theorem layer2_at (x0 : S100000x64.Idx → EReal) (x1 : (⟨S2x1200000, .i32⟩ : BufTy).Contents (Elt Ideal)) (x2 : S64x64.Idx → EReal) (x3 : S64.Idx → EReal)
    (x4 : S64x64.Idx → EReal) (x5 x6 x7 x8 : S64.Idx → EReal) (x9 : S64x64.Idx → EReal) (x10 : S64.Idx → EReal) (x11 : S64x64.Idx → EReal)
    (x12 x13 x14 x15 : S64.Idx → EReal) (r : Fin 100000) (j : Fin 64) :
    val_main_v85 (F := Ideal) x0 x1 x2 x3 x4 x5 x6 x7 x8 x9 x10 x11 x12 x13 x14 x15 (ix2 r j)
      = sageRow (fun k => val_main_v63 (F := Ideal) x0 x1 x2 x3 x4 x5 x6 x7 x8 (ix2 r k)) (fun k => val_main_v44 (F := Ideal) x0 x1 x2 x3 x4 x5 x6 x7 x8 (ix2 r k))
          (fun k j => x9 (ix2 j k)) (fun k j => x11 (ix2 j k))
          (fun j => x10 (ix1 j)) (fun j => x12 (ix1 j)) (fun j => x13 (ix1 j)) (fun j => x14 (ix1 j)) (fun j => x15 (ix1 j)) j := by
  rw [val_main_v85_apply, val_main_v84_apply, val_main_v81_apply, val_main_v74_apply, val_main_v71_apply, val_main_v68_apply,
    val_main_v65_apply, val_main_v67_apply, val_main_v66_apply, val_main_v70_apply, val_main_v73_apply, val_main_v72_apply,
    val_main_v80_apply, val_main_v79_apply, val_main_v78_apply, val_main_v77_apply, val_main_v76_apply, val_main_v75_apply,
    val_main_cst_11_apply, val_main_v83_apply, val_main_v82_apply, val_main_call1_v0_apply, val_main_call1_cst_apply]
  simp only [val_main_v64_apply, val_main_v69_apply]
  have eL : ∀ k : Fin 64, lidx_main_v65 (ix2 r j) k = ix2 r k := fun k =>
    funext fun a => Fin.ext (by match a with | ⟨0, _⟩ => rfl | ⟨1, _⟩ => rfl)
  have eWl : ∀ k : Fin 64, idx_main_v64 (ridx_main_v65 (ix2 r j) k) = ix2 j k := fun k =>
    funext fun a => Fin.ext (by match a with | ⟨0, _⟩ => rfl | ⟨1, _⟩ => rfl)
  have eX : ∀ k : Fin 64, lidx_main_v70 (ix2 r j) k = ix2 r k := fun k =>
    funext fun a => Fin.ext (by match a with | ⟨0, _⟩ => rfl | ⟨1, _⟩ => rfl)
  have eWr : ∀ k : Fin 64, idx_main_v69 (ridx_main_v70 (ix2 r j) k) = ix2 j k := fun k =>
    funext fun a => Fin.ext (by match a with | ⟨0, _⟩ => rfl | ⟨1, _⟩ => rfl)
  have eB : idx_main_v66 (idx_main_v67 (ix2 r j)) = ix1 j :=
    funext fun a => Fin.ext (by match a with | ⟨0, _⟩ => rfl)
  have eM : idx_main_v72 (idx_main_v73 (ix2 r j)) = ix1 j :=
    funext fun a => Fin.ext (by match a with | ⟨0, _⟩ => rfl)
  have eG : idx_main_v79 (idx_main_v80 (ix2 r j)) = ix1 j :=
    funext fun a => Fin.ext (by match a with | ⟨0, _⟩ => rfl)
  have eBe : idx_main_v82 (idx_main_v83 (ix2 r j)) = ix1 j :=
    funext fun a => Fin.ext (by match a with | ⟨0, _⟩ => rfl)
  simp only [eL, eWl, eX, eWr, eB, eM, eG, eBe, Ideal.maximumf_def, Ideal.addf_def, Ideal.mulf_def, Ideal.subf_def,
    Ideal.hostUnary_rsqrt_def, Ideal.ofBits_def, Ideal.ofBits_zero_f32]
  exact sageRow_bias_first (fun k => val_main_v63 (F := Ideal) x0 x1 x2 x3 x4 x5 x6 x7 x8 (ix2 r k)) (fun k => val_main_v44 (F := Ideal) x0 x1 x2 x3 x4 x5 x6 x7 x8 (ix2 r k))
    (fun k j => x9 (ix2 j k)) (fun k j => x11 (ix2 j k)) (fun j => x10 (ix1 j)) (fun j => x12 (ix1 j)) (fun j => x13 (ix1 j))
    (fun j => x14 (ix1 j)) (fun j => x15 (ix1 j)) j

/-- The perceptron's hidden unit `k2` on node `r`: the rectified affine image of the second layer's row. -/
theorem hidden_at (x0 : S100000x64.Idx → EReal) (x1 : (⟨S2x1200000, .i32⟩ : BufTy).Contents (Elt Ideal)) (x2 : S64x64.Idx → EReal) (x3 : S64.Idx → EReal)
    (x4 : S64x64.Idx → EReal) (x5 x6 x7 x8 : S64.Idx → EReal) (x9 : S64x64.Idx → EReal) (x10 : S64.Idx → EReal) (x11 : S64x64.Idx → EReal)
    (x12 x13 x14 x15 : S64.Idx → EReal) (x16 : S32x64.Idx → EReal) (x17 : S32.Idx → EReal) (r : Fin 100000) (k2 : Fin 32) :
    val_main_v91 (F := Ideal) x0 x1 x2 x3 x4 x5 x6 x7 x8 x9 x10 x11 x12 x13 x14 x15 x16 x17 (ix2 r k2)
      = max ((∑ k : Fin 64,
            sageRow (fun k => val_main_v63 (F := Ideal) x0 x1 x2 x3 x4 x5 x6 x7 x8 (ix2 r k)) (fun k => val_main_v44 (F := Ideal) x0 x1 x2 x3 x4 x5 x6 x7 x8 (ix2 r k))
              (fun k j => x9 (ix2 j k)) (fun k j => x11 (ix2 j k))
              (fun j => x10 (ix1 j)) (fun j => x12 (ix1 j)) (fun j => x13 (ix1 j)) (fun j => x14 (ix1 j)) (fun j => x15 (ix1 j)) k * x16 (ix2 k2 k)) + x17 (ix1 k2)) 0 := by
  rw [val_main_v91_apply, val_main_v90_apply, val_main_v87_apply, val_main_v89_apply, val_main_v88_apply,
    val_main_call2_v0_apply, val_main_call2_cst_apply]
  have eB : idx_main_v88 (idx_main_v89 (ix2 r k2)) = ix1 k2 :=
    funext fun a => Fin.ext (by match a with | ⟨0, _⟩ => rfl)
  have hs : ∀ k : Fin 64,
      val_main_v85 (F := Ideal) x0 x1 x2 x3 x4 x5 x6 x7 x8 x9 x10 x11 x12 x13 x14 x15 (lidx_main_v87 (ix2 r k2) k) * val_main_v86 (F := Ideal) x16 (ridx_main_v87 (ix2 r k2) k)
        = sageRow (fun k => val_main_v63 (F := Ideal) x0 x1 x2 x3 x4 x5 x6 x7 x8 (ix2 r k)) (fun k => val_main_v44 (F := Ideal) x0 x1 x2 x3 x4 x5 x6 x7 x8 (ix2 r k))
              (fun k j => x9 (ix2 j k)) (fun k j => x11 (ix2 j k))
              (fun j => x10 (ix1 j)) (fun j => x12 (ix1 j)) (fun j => x13 (ix1 j)) (fun j => x14 (ix1 j)) (fun j => x15 (ix1 j)) k * x16 (ix2 k2 k) := fun k => by
    have e1 : lidx_main_v87 (ix2 r k2) k = ix2 r k :=
      funext fun a => Fin.ext (by match a with | ⟨0, _⟩ => rfl | ⟨1, _⟩ => rfl)
    have e2 : idx_main_v86 (ridx_main_v87 (ix2 r k2) k) = ix2 k2 k :=
      funext fun a => Fin.ext (by match a with | ⟨0, _⟩ => rfl | ⟨1, _⟩ => rfl)
    rw [val_main_v86_apply, e1, e2, layer2_at]
  rw [eB, Finset.sum_congr rfl fun k _ => hs k]
  simp only [Ideal.maximumf_def, Ideal.addf_def, Ideal.ofBits_def, Ideal.ofBits_zero_f32]

/-- The result: on every node, the logistic function of the head applied to the second layer's row. -/
theorem out (x0 : S100000x64.Idx → EReal) (x1 : (⟨S2x1200000, .i32⟩ : BufTy).Contents (Elt Ideal)) (x2 : S64x64.Idx → EReal) (x3 : S64.Idx → EReal)
    (x4 : S64x64.Idx → EReal) (x5 x6 x7 x8 : S64.Idx → EReal) (x9 : S64x64.Idx → EReal) (x10 : S64.Idx → EReal) (x11 : S64x64.Idx → EReal)
    (x12 x13 x14 x15 : S64.Idx → EReal) (x16 : S32x64.Idx → EReal) (x17 : S32.Idx → EReal) (x18 : S1x32.Idx → EReal) (x19 : S1.Idx → EReal) :
    val_main_v103 (F := Ideal) x0 x1 x2 x3 x4 x5 x6 x7 x8 x9 x10 x11 x12 x13 x14 x15 x16 x17 x18 x19
      = outVec (val_main_v63 (F := Ideal) x0 x1 x2 x3 x4 x5 x6 x7 x8) (val_main_v44 (F := Ideal) x0 x1 x2 x3 x4 x5 x6 x7 x8)
          (fun k j => x9 (ix2 j k)) (fun k j => x11 (ix2 j k))
          (fun j => x10 (ix1 j)) (fun j => x12 (ix1 j)) (fun j => x13 (ix1 j)) (fun j => x14 (ix1 j)) (fun j => x15 (ix1 j))
          (fun k k2 => x16 (ix2 k2 k)) (fun k2 => x17 (ix1 k2)) (fun k2 => x18 (ix2 0 k2)) (x19 (ix1 0)) := by
  funext i
  obtain ⟨r, rfl⟩ : ∃ r : Fin 100000, i = ix1 r := ⟨i 0, eq_ix1 i⟩
  rw [val_main_v103_apply, val_main_v102_apply, val_main_cst_13_apply, val_main_v101_apply, val_main_v100_apply, val_main_cst_12_apply,
    val_main_v99_apply, val_main_v98_apply, val_main_v97_apply, val_main_v96_apply, val_main_v93_apply, val_main_v95_apply,
    val_main_v94_apply]
  have eR : idx_main_v97 (ix1 r) = ix2 r 0 :=
    funext fun a => Fin.ext (by match a with | ⟨0, _⟩ => exact Nat.div_one _ | ⟨1, _⟩ => rfl)
  have eB : idx_main_v94 (idx_main_v95 (ix2 r 0)) = ix1 0 :=
    funext fun a => Fin.ext (by match a with | ⟨0, _⟩ => rfl)
  have hs : ∀ k2 : Fin 32,
      val_main_v91 (F := Ideal) x0 x1 x2 x3 x4 x5 x6 x7 x8 x9 x10 x11 x12 x13 x14 x15 x16 x17 (lidx_main_v93 (ix2 r 0) k2) * val_main_v92 (F := Ideal) x18 (ridx_main_v93 (ix2 r 0) k2)
        = val_main_v91 (F := Ideal) x0 x1 x2 x3 x4 x5 x6 x7 x8 x9 x10 x11 x12 x13 x14 x15 x16 x17 (ix2 r k2) * x18 (ix2 0 k2) := fun k2 => by
    have e1 : lidx_main_v93 (ix2 r 0) k2 = ix2 r k2 :=
      funext fun a => Fin.ext (by match a with | ⟨0, _⟩ => rfl | ⟨1, _⟩ => rfl)
    have e2 : idx_main_v92 (ridx_main_v93 (ix2 r 0) k2) = ix2 0 k2 :=
      funext fun a => Fin.ext (by match a with | ⟨0, _⟩ => rfl | ⟨1, _⟩ => rfl)
    rw [val_main_v92_apply, e1, e2]
  rw [eR, eB, Finset.sum_congr rfl fun k2 _ => hs k2]
  simp only [hidden_at, Ideal.hostDivf_def, Ideal.addf_def, Ideal.hostUnary_exp_def, Ideal.hostNegf_def, Ideal.negf_def, Ideal.ofBits_def]
  rw [logistic_expand]
  rfl

end Cert.ReferenceIdeal.RefValue

end
-- ==== Proof.RefGlue.lean ====
/-
  The reference program's two neighbourhood means are the shared graph operations: the stage that divides the
  scatter-added gathered rows by the clamped in-degree is `Cert.Glue.meanAgg` of the features (first layer) or of the
  first layer's output (second layer), over the same edge rows and the same in-degrees. The reference computes the
  in-degrees twice, by the same operations; both are `Cert.Glue.cntOf` of the destination row.
-/
import proofs.«113890_j68453188764197_1_alg».proof.Proof.Gen.ReferenceIdeal.Read
import proofs.«113890_j68453188764197_1_alg».proof.Proof.Glue

set_option maxRecDepth 16384

noncomputable section

namespace Cert.ReferenceIdeal.RefGlue

open Cert.ReferenceIdeal Cert.ReferenceIdeal.Read Cert.Glue
open Idealize.ShloMosaic Idealize.ShloMosaic.TcCoe

variable {F : FTy → Type} [FloatOps F]

/-- The first layer's neighbourhood mean. -/
theorem agg1_eq (x0 : (⟨S100000x64, .f32⟩ : BufTy).Contents (Elt F)) (x1 : (⟨S2x1200000, .i32⟩ : BufTy).Contents (Elt F)) :
    val_main_v22 (F := F) x0 x1 = meanAgg x0 (srcOf x1) (dstOf x1) (cntOf (dstOf x1)) := rfl

/-- The second layer's neighbourhood mean, of the first layer's output. -/
theorem agg2_eq (x0 : (⟨S100000x64, .f32⟩ : BufTy).Contents (Elt F)) (x1 : (⟨S2x1200000, .i32⟩ : BufTy).Contents (Elt F))
    (x2 : (⟨S64x64, .f32⟩ : BufTy).Contents (Elt F)) (x3 : (⟨S64, .f32⟩ : BufTy).Contents (Elt F)) (x4 : (⟨S64x64, .f32⟩ : BufTy).Contents (Elt F))
    (x5 x6 x7 x8 : (⟨S64, .f32⟩ : BufTy).Contents (Elt F)) :
    val_main_v63 (F := F) x0 x1 x2 x3 x4 x5 x6 x7 x8
      = meanAgg (val_main_v44 (F := F) x0 x1 x2 x3 x4 x5 x6 x7 x8) (srcOf x1) (dstOf x1) (cntOf (dstOf x1)) := rfl

end Cert.ReferenceIdeal.RefGlue

end
-- ==== Proof.RefNet.lean ====
/-
  The reference program's result is the network function of its arguments: its last stage is the head over the
  second layer (read stage by stage), the second layer's neighbourhood mean is the shared graph operation applied to
  the first layer's output, and the first layer is the layer function of the shared neighbourhood mean of the features.
-/
import proofs.«113890_j68453188764197_1_alg».proof.Proof.RefLayers
import proofs.«113890_j68453188764197_1_alg».proof.Proof.RefGlue
import proofs.«113890_j68453188764197_1_alg».proof.Proof.Net

noncomputable section

namespace Cert.ReferenceIdeal.RefNet

open Cert.ReferenceIdeal Cert.ReferenceIdeal.Read Cert.Spec Cert.Glue Cert.Net
open Idealize.ShloMosaic Idealize.ShloMosaic.TcCoe Idealize.ShloMosaic.ValueIdx

theorem value (x0 : S100000x64.Idx → EReal) (x1 : (⟨S2x1200000, .i32⟩ : BufTy).Contents (Elt Ideal)) (x2 : S64x64.Idx → EReal) (x3 : S64.Idx → EReal)
    (x4 : S64x64.Idx → EReal) (x5 x6 x7 x8 : S64.Idx → EReal) (x9 : S64x64.Idx → EReal) (x10 : S64.Idx → EReal) (x11 : S64x64.Idx → EReal)
    (x12 x13 x14 x15 : S64.Idx → EReal) (x16 : S32x64.Idx → EReal) (x17 : S32.Idx → EReal) (x18 : S1x32.Idx → EReal) (x19 : S1.Idx → EReal) :
    val_main_v103 (F := Ideal) x0 x1 x2 x3 x4 x5 x6 x7 x8 x9 x10 x11 x12 x13 x14 x15 x16 x17 x18 x19 = net x0 x1 x2 x3 x4 x5 x6 x7 x8 x9 x10 x11 x12 x13 x14 x15 x16 x17 x18 x19 := by
  rw [Cert.ReferenceIdeal.RefValue.out, Cert.ReferenceIdeal.RefGlue.agg2_eq, Cert.ReferenceIdeal.RefValue.layer1,
    Cert.ReferenceIdeal.RefGlue.agg1_eq]
  rfl

end Cert.ReferenceIdeal.RefNet

end
-- ==== Proof.lean ====
/-
  The certificate of a two-layer mean-aggregation graph network with a perceptron head: a Pallas program that computes
  the two dense layers (two matrix products, evaluation-mode batch normalisation, rectifier) and the head (two more
  matrix products, rectifier, logistic) in two kernel regions over 50 blocks of 2000 nodes, with the edge gather and
  scatter-add on the host, against a plain host program of the same network.

  Over the extended reals both programs compute ONE function of the twenty argument arrays (`Cert.Net.net`):
  a change of float format is the identity, a kernel's matrix product into a zero accumulator and the host's
  `dot_general` are the same sum over the contracted channel, the kernel's logistic is the host's
  `1 / (1 + exp (−z))`, the shared graph operations are the same terms, and the only rearrangement — the bias added
  before or after the second linear map — is commutativity of addition, which holds at the infinities too, so the
  precondition is never opened. The frames of the two kernel programs are the generated frame certificates; the
  reference's frame is its run with the result dropped; the idealization's ledger is empty.
-/
import proofs.«113890_j68453188764197_1_alg».proof.Defs
import proofs.«113890_j68453188764197_1_alg».proof.Proof.Gen.Kernel
import proofs.«113890_j68453188764197_1_alg».proof.Proof.FrameKernel
import proofs.«113890_j68453188764197_1_alg».proof.Proof.Gen.KernelIdeal
import proofs.«113890_j68453188764197_1_alg».proof.Proof.FrameKernelIdeal
import proofs.«113890_j68453188764197_1_alg».proof.Proof.KRun
import proofs.«113890_j68453188764197_1_alg».proof.Proof.KNet
import proofs.«113890_j68453188764197_1_alg».proof.Proof.Gen.ReferenceIdeal
import proofs.«113890_j68453188764197_1_alg».proof.Proof.Gen.ReferenceIdeal.Run
import proofs.«113890_j68453188764197_1_alg».proof.Proof.Gen.ReferenceIdeal.Read
import proofs.«113890_j68453188764197_1_alg».proof.Proof.RefNet
import proofs.«113890_j68453188764197_1_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is host operations only: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- From memories that agree on the arguments both idealized programs end with the network function of the
    arguments in their result buffers. -/
theorem algebraic : Cert.algebraic_KernelIdeal_ReferenceIdeal := by
  intro m ρ m' ρ' _ hagree
  refine ⟨fun c => Cert.Net.net (Cert.KernelIdeal.KNet.a0 m c) (Cert.KernelIdeal.KNet.a1 m c) (Cert.KernelIdeal.KNet.a2 m c) (Cert.KernelIdeal.KNet.a3 m c) (Cert.KernelIdeal.KNet.a4 m c) (Cert.KernelIdeal.KNet.a5 m c) (Cert.KernelIdeal.KNet.a6 m c) (Cert.KernelIdeal.KNet.a7 m c) (Cert.KernelIdeal.KNet.a8 m c) (Cert.KernelIdeal.KNet.a9 m c) (Cert.KernelIdeal.KNet.a10 m c) (Cert.KernelIdeal.KNet.a11 m c) (Cert.KernelIdeal.KNet.a12 m c) (Cert.KernelIdeal.KNet.a13 m c) (Cert.KernelIdeal.KNet.a14 m c) (Cert.KernelIdeal.KNet.a15 m c) (Cert.KernelIdeal.KNet.a16 m c) (Cert.KernelIdeal.KNet.a17 m c) (Cert.KernelIdeal.KNet.a18 m c) (Cert.KernelIdeal.KNet.a19 m c), ?_, ?_⟩
  · exact (θ_run Cert.KernelIdeal.defs _ _).mono
      (fun r h c => ⟨(h c).1.trans (Cert.KernelIdeal.KNet.value m ρ c), (h c).2⟩)
      (Cert.KernelIdeal.RunNamed.run_named m ρ)
  · refine (θ_run Cert.ReferenceIdeal.defs _ _).mono (fun r h c => ⟨?_, (h c).2⟩)
      (Cert.ReferenceIdeal.Value.run (F := Ideal) m' ρ')
    have hv : Cert.ReferenceIdeal.Value.res_main_v103 m' c = Cert.Net.net (Cert.KernelIdeal.KNet.a0 m c) (Cert.KernelIdeal.KNet.a1 m c) (Cert.KernelIdeal.KNet.a2 m c) (Cert.KernelIdeal.KNet.a3 m c) (Cert.KernelIdeal.KNet.a4 m c) (Cert.KernelIdeal.KNet.a5 m c) (Cert.KernelIdeal.KNet.a6 m c) (Cert.KernelIdeal.KNet.a7 m c) (Cert.KernelIdeal.KNet.a8 m c) (Cert.KernelIdeal.KNet.a9 m c) (Cert.KernelIdeal.KNet.a10 m c) (Cert.KernelIdeal.KNet.a11 m c) (Cert.KernelIdeal.KNet.a12 m c) (Cert.KernelIdeal.KNet.a13 m c) (Cert.KernelIdeal.KNet.a14 m c) (Cert.KernelIdeal.KNet.a15 m c) (Cert.KernelIdeal.KNet.a16 m c) (Cert.KernelIdeal.KNet.a17 m c) (Cert.KernelIdeal.KNet.a18 m c) (Cert.KernelIdeal.KNet.a19 m c) := by
      rw [Cert.ReferenceIdeal.Read.val_main_v103_eq m' c]
      obtain ⟨e0, e1, e2, e3, e4, e5, e6, e7, e8, e9, e10, e11, e12, e13, e14, e15, e16, e17, e18, e19⟩ := hagree c
      rw [e0, e1, e2, e3, e4, e5, e6, e7, e8, e9, e10, e11, e12, e13, e14, e15, e16, e17, e18, e19]
      exact Cert.ReferenceIdeal.RefNet.value _ _ _ _ _ _ _ _ _ _ _ _ _ _ _ _ _ _ _ _
    exact (h c).1.trans hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
